-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x440 : Shape := ⟨2, ![262144, 440]⟩
abbrev S40x40 : Shape := ⟨2, ![40, 40]⟩
abbrev S40 : Shape := ⟨1, ![40]⟩
abbrev S10x40 : Shape := ⟨2, ![10, 40]⟩
abbrev S10 : Shape := ⟨1, ![10]⟩
abbrev S41x41 : Shape := ⟨2, ![41, 41]⟩
abbrev S41 : Shape := ⟨1, ![41]⟩
abbrev S22x41 : Shape := ⟨2, ![22, 41]⟩
abbrev S22 : Shape := ⟨1, ![22]⟩
abbrev S_ : Shape := ⟨0, ![]⟩

class Facts : Prop where
  bcast_S_S262144x440 : S_.BroadcastsInDim S262144x440 (![] : Fin 0 → Fin S262144x440.rank)
  reducesTo_S262144x440_S_d0_1 : S262144x440.ReducesTo [0, 1] S_
  h_S_ : 0 < S_.numel
  bcast_S_S40x40 : S_.BroadcastsInDim S40x40 (![] : Fin 0 → Fin S40x40.rank)
  reducesTo_S40x40_S_d0_1 : S40x40.ReducesTo [0, 1] S_
  bcast_S_S40 : S_.BroadcastsInDim S40 (![] : Fin 0 → Fin S40.rank)
  reducesTo_S40_S_d0 : S40.ReducesTo [0] S_
  bcast_S_S10x40 : S_.BroadcastsInDim S10x40 (![] : Fin 0 → Fin S10x40.rank)
  reducesTo_S10x40_S_d0_1 : S10x40.ReducesTo [0, 1] S_
  bcast_S_S10 : S_.BroadcastsInDim S10 (![] : Fin 0 → Fin S10.rank)
  reducesTo_S10_S_d0 : S10.ReducesTo [0] S_
  bcast_S_S41x41 : S_.BroadcastsInDim S41x41 (![] : Fin 0 → Fin S41x41.rank)
  reducesTo_S41x41_S_d0_1 : S41x41.ReducesTo [0, 1] S_
  bcast_S_S41 : S_.BroadcastsInDim S41 (![] : Fin 0 → Fin S41.rank)
  reducesTo_S41_S_d0 : S41.ReducesTo [0] S_
  bcast_S_S22x41 : S_.BroadcastsInDim S22x41 (![] : Fin 0 → Fin S22x41.rank)
  reducesTo_S22x41_S_d0_1 : S22x41.ReducesTo [0, 1] S_
  bcast_S_S22 : S_.BroadcastsInDim S22 (![] : Fin 0 → Fin S22.rank)
  reducesTo_S22_S_d0 : S22.ReducesTo [0] S_

variable [Facts]

def fn_part3 {F : FTy → Type} [FloatOps F] (main_arg11 : FVec F S22x41 .f32) (main_arg12 : FVec F S22 .f32) (main_v48 : IVec S_ 1) (main_v49 : FVec F S41 .f32) (main_v50 : FVec F S41 .f32) : IVec S_ 1 :=
  let main_v51 : IVec S41 1 := cmpf .olt main_v49 main_v50
  let main_c_19 : IVec S_ 1 := constantI S_ 1 1#1
  let main_v52 : IVec S_ 1 := (fun x v => Host.reduce IntOp.andi x v reducesTo_S41_S_d0 h_S_) main_v51 main_c_19
  let main_v53 : IVec S_ 1 := andi main_v48 main_v52
  let main_v54 : FVec F S22x41 .f32 := Host.absf main_arg11
  let main_cst_20 : FVec F S_ .f32 := constant S_ .f32 0x7F800000#32
  let main_v55 : FVec F S22x41 .f32 := broadcastInDim S22x41 ![] bcast_S_S22x41 main_cst_20
  let main_v56 : IVec S22x41 1 := cmpf .olt main_v54 main_v55
  let main_c_21 : IVec S_ 1 := constantI S_ 1 1#1
  let main_v57 : IVec S_ 1 := (fun x v => Host.reduce IntOp.andi x v reducesTo_S22x41_S_d0_1 h_S_) main_v56 main_c_21
  let main_v58 : IVec S_ 1 := andi main_v53 main_v57
  let main_v59 : FVec F S22 .f32 := Host.absf main_arg12
  let main_cst_22 : FVec F S_ .f32 := constant S_ .f32 0x7F800000#32
  let main_v60 : FVec F S22 .f32 := broadcastInDim S22 ![] bcast_S_S22 main_cst_22
  let main_v61 : IVec S22 1 := cmpf .olt main_v59 main_v60
  let main_c_23 : IVec S_ 1 := constantI S_ 1 1#1
  let main_v62 : IVec S_ 1 := (fun x v => Host.reduce IntOp.andi x v reducesTo_S22_S_d0 h_S_) main_v61 main_c_23
  let main_v63 : IVec S_ 1 := andi main_v58 main_v62
  main_v63

def fn_part2 {F : FTy → Type} [FloatOps F] (main_arg7 : FVec F S41x41 .f32) (main_arg8 : FVec F S41 .f32) (main_arg9 : FVec F S41x41 .f32) (main_arg10 : FVec F S41 .f32) (main_arg11 : FVec F S22x41 .f32) (main_arg12 : FVec F S22 .f32) (main_v33 : IVec S_ 1) : IVec S_ 1 :=
  let main_v34 : FVec F S41x41 .f32 := Host.absf main_arg7
  let main_cst_12 : FVec F S_ .f32 := constant S_ .f32 0x7F800000#32
  let main_v35 : FVec F S41x41 .f32 := broadcastInDim S41x41 ![] bcast_S_S41x41 main_cst_12
  let main_v36 : IVec S41x41 1 := cmpf .olt main_v34 main_v35
  let main_c_13 : IVec S_ 1 := constantI S_ 1 1#1
  let main_v37 : IVec S_ 1 := (fun x v => Host.reduce IntOp.andi x v reducesTo_S41x41_S_d0_1 h_S_) main_v36 main_c_13
  let main_v38 : IVec S_ 1 := andi main_v33 main_v37
  let main_v39 : FVec F S41 .f32 := Host.absf main_arg8
  let main_cst_14 : FVec F S_ .f32 := constant S_ .f32 0x7F800000#32
  let main_v40 : FVec F S41 .f32 := broadcastInDim S41 ![] bcast_S_S41 main_cst_14
  let main_v41 : IVec S41 1 := cmpf .olt main_v39 main_v40
  let main_c_15 : IVec S_ 1 := constantI S_ 1 1#1
  let main_v42 : IVec S_ 1 := (fun x v => Host.reduce IntOp.andi x v reducesTo_S41_S_d0 h_S_) main_v41 main_c_15
  let main_v43 : IVec S_ 1 := andi main_v38 main_v42
  let main_v44 : FVec F S41x41 .f32 := Host.absf main_arg9
  let main_cst_16 : FVec F S_ .f32 := constant S_ .f32 0x7F800000#32
  let main_v45 : FVec F S41x41 .f32 := broadcastInDim S41x41 ![] bcast_S_S41x41 main_cst_16
  let main_v46 : IVec S41x41 1 := cmpf .olt main_v44 main_v45
  let main_c_17 : IVec S_ 1 := constantI S_ 1 1#1
  let main_v47 : IVec S_ 1 := (fun x v => Host.reduce IntOp.andi x v reducesTo_S41x41_S_d0_1 h_S_) main_v46 main_c_17
  let main_v48 : IVec S_ 1 := andi main_v43 main_v47
  let main_v49 : FVec F S41 .f32 := Host.absf main_arg10
  let main_cst_18 : FVec F S_ .f32 := constant S_ .f32 0x7F800000#32
  let main_v50 : FVec F S41 .f32 := broadcastInDim S41 ![] bcast_S_S41 main_cst_18
  fn_part3 (F := F) main_arg11 main_arg12 main_v48 main_v49 main_v50

def fn_part1 {F : FTy → Type} [FloatOps F] (main_arg4 : FVec F S40 .f32) (main_arg5 : FVec F S10x40 .f32) (main_arg6 : FVec F S10 .f32) (main_arg7 : FVec F S41x41 .f32) (main_arg8 : FVec F S41 .f32) (main_arg9 : FVec F S41x41 .f32) (main_arg10 : FVec F S41 .f32) (main_arg11 : FVec F S22x41 .f32) (main_arg12 : FVec F S22 .f32) (main_v13 : IVec S_ 1) (main_v16 : IVec S40x40 1) : IVec S_ 1 :=
  let main_c_5 : IVec S_ 1 := constantI S_ 1 1#1
  let main_v17 : IVec S_ 1 := (fun x v => Host.reduce IntOp.andi x v reducesTo_S40x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S10x40 .f32 := Host.absf main_arg5
  let main_cst_8 : FVec F S_ .f32 := constant S_ .f32 0x7F800000#32
  let main_v25 : FVec F S10x40 .f32 := broadcastInDim S10x40 ![] bcast_S_S10x40 main_cst_8
  let main_v26 : IVec S10x40 1 := cmpf .olt main_v24 main_v25
  let main_c_9 : IVec S_ 1 := constantI S_ 1 1#1
  let main_v27 : IVec S_ 1 := (fun x v => Host.reduce IntOp.andi x v reducesTo_S10x40_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S262144x440 .f32) (main_arg1 : FVec F S40x40 .f32) (main_arg2 : FVec F S40 .f32) (main_arg3 : FVec F S40x40 .f32) (main_arg4 : FVec F S40 .f32) (main_arg5 : FVec F S10x40 .f32) (main_arg6 : FVec F S10 .f32) (main_arg7 : FVec F S41x41 .f32) (main_arg8 : FVec F S41 .f32) (main_arg9 : FVec F S41x41 .f32) (main_arg10 : FVec F S41 .f32) (main_arg11 : FVec F S22x41 .f32) (main_arg12 : FVec F S22 .f32) : IVec S_ 1 :=
  let main_v0 : FVec F S262144x440 .f32 := Host.absf main_arg0
  let main_cst : FVec F S_ .f32 := constant S_ .f32 0x7F800000#32
  let main_v1 : FVec F S262144x440 .f32 := broadcastInDim S262144x440 ![] bcast_S_S262144x440 main_cst
  let main_v2 : IVec S262144x440 1 := cmpf .olt main_v0 main_v1
  let main_c : IVec S_ 1 := constantI S_ 1 1#1
  let main_v3 : IVec S_ 1 := (fun x v => Host.reduce IntOp.andi x v reducesTo_S262144x440_S_d0_1 h_S_) main_v2 main_c
  let main_v4 : FVec F S40x40 .f32 := Host.absf main_arg1
  let main_cst_0 : FVec F S_ .f32 := constant S_ .f32 0x7F800000#32
  let main_v5 : FVec F S40x40 .f32 := broadcastInDim S40x40 ![] bcast_S_S40x40 main_cst_0
  let main_v6 : IVec S40x40 1 := cmpf .olt main_v4 main_v5
  let main_c_1 : IVec S_ 1 := constantI S_ 1 1#1
  let main_v7 : IVec S_ 1 := (fun x v => Host.reduce IntOp.andi x v reducesTo_S40x40_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  let main_v14 : FVec F S40x40 .f32 := Host.absf main_arg3
  let main_cst_4 : FVec F S_ .f32 := constant S_ .f32 0x7F800000#32
  let main_v15 : FVec F S40x40 .f32 := broadcastInDim S40x40 ![] bcast_S_S40x40 main_cst_4
  let main_v16 : IVec S40x40 1 := cmpf .olt main_v14 main_v15
  fn_part1 (F := F) main_arg4 main_arg5 main_arg6 main_arg7 main_arg8 main_arg9 main_arg10 main_arg11 main_arg12 main_v13 main_v16
-- ==== Kernel.lean ====
abbrev S262144x440 : Shape := ⟨2, ![262144, 440]⟩
abbrev S40x40 : Shape := ⟨2, ![40, 40]⟩
abbrev S40 : Shape := ⟨1, ![40]⟩
abbrev S10x40 : Shape := ⟨2, ![10, 40]⟩
abbrev S10 : Shape := ⟨1, ![10]⟩
abbrev S41x41 : Shape := ⟨2, ![41, 41]⟩
abbrev S41 : Shape := ⟨1, ![41]⟩
abbrev S22x41 : Shape := ⟨2, ![22, 41]⟩
abbrev S22 : Shape := ⟨1, ![22]⟩
abbrev S262144x10x22 : Shape := ⟨3, ![262144, 10, 22]⟩
abbrev S1024x440 : Shape := ⟨2, ![1024, 440]⟩
abbrev S1024x10x22 : Shape := ⟨3, ![1024, 10, 22]⟩
abbrev S41x40 : Shape := ⟨2, ![41, 40]⟩
abbrev S41x1 : Shape := ⟨2, ![41, 1]⟩
abbrev S1024x40 : Shape := ⟨2, ![1024, 40]⟩
abbrev S1x40 : Shape := ⟨2, ![1, 40]⟩
abbrev S1024x10 : Shape := ⟨2, ![1024, 10]⟩
abbrev S1x10 : Shape := ⟨2, ![1, 10]⟩
abbrev S1024 : Shape := ⟨1, ![1024]⟩
abbrev S1024x1 : Shape := ⟨2, ![1024, 1]⟩
abbrev S1024x41 : Shape := ⟨2, ![1024, 41]⟩
abbrev S1x41 : Shape := ⟨2, ![1, 41]⟩
abbrev S1024x22 : Shape := ⟨2, ![1024, 22]⟩
abbrev S1x22 : Shape := ⟨2, ![1, 22]⟩
abbrev S1024x1x22 : Shape := ⟨3, ![1024, 1, 22]⟩

abbrev nBuf : Space → Nat
  | .hbm => 14
  | .vmem => 16
  | .smem => 0
  | _ => 0

abbrev bufTy : (tb : Table) → Fin (tcTables nBuf tb) → BufTy
  | .hbm, ⟨0, _⟩ => ⟨S262144x440, .f32⟩
  | .hbm, ⟨1, _⟩ => ⟨S40x40, .f32⟩
  | .hbm, ⟨2, _⟩ => ⟨S40, .f32⟩
  | .hbm, ⟨3, _⟩ => ⟨S40x40, .f32⟩
  | .hbm, ⟨4, _⟩ => ⟨S40, .f32⟩
  | .hbm, ⟨5, _⟩ => ⟨S10x40, .f32⟩
  | .hbm, ⟨6, _⟩ => ⟨S10, .f32⟩
  | .hbm, ⟨7, _⟩ => ⟨S41x41, .f32⟩
  | .hbm, ⟨8, _⟩ => ⟨S41, .f32⟩
  | .hbm, ⟨9, _⟩ => ⟨S41x41, .f32⟩
  | .hbm, ⟨10, _⟩ => ⟨S41, .f32⟩
  | .hbm, ⟨11, _⟩ => ⟨S22x41, .f32⟩
  | .hbm, ⟨12, _⟩ => ⟨S22, .f32⟩
  | .hbm, ⟨13, _⟩ => ⟨S262144x10x22, .f32⟩
  | .local _ .vmem, ⟨0, _⟩ => ⟨S1024x440, .f32⟩
  | .local _ .vmem, ⟨1, _⟩ => ⟨S1024x440, .f32⟩
  | .local _ .vmem, ⟨2, _⟩ => ⟨S40x40, .f32⟩
  | .local _ .vmem, ⟨3, _⟩ => ⟨S40, .f32⟩
  | .local _ .vmem, ⟨4, _⟩ => ⟨S40x40, .f32⟩
  | .local _ .vmem, ⟨5, _⟩ => ⟨S40, .f32⟩
  | .local _ .vmem, ⟨6, _⟩ => ⟨S10x40, .f32⟩
  | .local _ .vmem, ⟨7, _⟩ => ⟨S10, .f32⟩
  | .local _ .vmem, ⟨8, _⟩ => ⟨S41x41, .f32⟩
  | .local _ .vmem, ⟨9, _⟩ => ⟨S41, .f32⟩
  | .local _ .vmem, ⟨10, _⟩ => ⟨S41x41, .f32⟩
  | .local _ .vmem, ⟨11, _⟩ => ⟨S41, .f32⟩
  | .local _ .vmem, ⟨12, _⟩ => ⟨S22x41, .f32⟩
  | .local _ .vmem, ⟨13, _⟩ => ⟨S22, .f32⟩
  | .local _ .vmem, ⟨14, _⟩ => ⟨S1024x10x22, .f32⟩
  | .local _ .vmem, ⟨15, _⟩ => ⟨S1024x10x22, .f32⟩
  | _, _ => ⟨S262144x440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x440 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S41x41 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S41 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S41x41 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S41 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S22x41 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S22 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x10x22 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S1024x440_S1024x440_0_0 : ∀ a, (![0, 0] : Fin 2 → Nat) a + S1024x440.size a ≤ S1024x440.size a
  h_S1024x440 : 0 < S1024x440.numel
  bitsLt_bf16_f32 : FTy.bits .bf16 < FTy.bits .f32
  inb_S40x40_S40x40_0_0 : ∀ a, (![0, 0] : Fin 2 → Nat) a + S40x40.size a ≤ S40x40.size a
  h_S40x40 : 0 < S40x40.numel
  inb_S40_S40_0 : ∀ a, (![0] : Fin 1 → Nat) a + S40.size a ≤ S40.size a
  h_S40 : 0 < S40.numel
  inb_S10x40_S10x40_0_0 : ∀ a, (![0, 0] : Fin 2 → Nat) a + S10x40.size a ≤ S10x40.size a
  h_S10x40 : 0 < S10x40.numel
  inb_S10_S10_0 : ∀ a, (![0] : Fin 1 → Nat) a + S10.size a ≤ S10.size a
  h_S10 : 0 < S10.numel
  inb_S41x41_S41x41_0_0 : ∀ a, (![0, 0] : Fin 2 → Nat) a + S41x41.size a ≤ S41x41.size a
  h_S41x41 : 0 < S41x41.numel
  inb_S41_S41_0 : ∀ a, (![0] : Fin 1 → Nat) a + S41.size a ≤ S41.size a
  h_S41 : 0 < S41.numel
  inb_S22x41_S22x41_0_0 : ∀ a, (![0, 0] : Fin 2 → Nat) a + S22x41.size a ≤ S22x41.size a
  h_S22x41 : 0 < S22x41.numel
  inb_S22_S22_0 : ∀ a, (![0] : Fin 1 → Nat) a + S22.size a ≤ S22.size a
  h_S22 : 0 < S22.numel
  slices_S41x41_o0_0_S41x40 : S41x41.Slices ![0, 0] S41x40
  slices_S41x41_o0_40_S41x1 : S41x41.Slices ![0, 40] S41x1
  slices_S1024x440_o0_0_S1024x40 : S1024x440.Slices ![0, 0] S1024x40
  shapeCasts_S40_S1x40 : S40.ShapeCasts S1x40
  broadcasts_S1x40_S1024x40 : S1x40.Broadcasts S1024x40
  shapeCasts_S10_S1x10 : S10.ShapeCasts S1x10
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  slices_S1024x440_o0_40_S1024x40 : S1024x440.Slices ![0, 40] S1024x40
  slices_S1024x10_o0_0_S1024x1 : S1024x10.Slices ![0, 0] S1024x1
  shapeCasts_S41_S1x41 : S41.ShapeCasts S1x41
  broadcasts_S1x41_S1024x41 : S1x41.Broadcasts S1024x41
  shapeCasts_S22_S1x22 : S22.ShapeCasts S1x22
  broadcasts_S1x22_S1024x22 : S1x22.Broadcasts S1024x22
  reduces_S1024x22_S1024 : S1024x22.Reduces [1] S1024
  broadcasts_S1024x1_S1024x22 : S1024x1.Broadcasts S1024x22
  inb_S1024x10x22_S1024x1x22_0_0_0 : ∀ a, (![0, 0, 0] : Fin 3 → Nat) a + S1024x1x22.size a ≤ S1024x10x22.size a
  h_S1024x1x22 : 0 < S1024x1x22.numel
  shapeCasts_S1024x1x22_S1024x22 : S1024x1x22.ShapeCasts S1024x22
  shapeCasts_S1024x22_S1024x1x22 : S1024x22.ShapeCasts S1024x1x22
  slices_S1024x440_o0_80_S1024x40 : S1024x440.Slices ![0, 80] S1024x40
  slices_S1024x10_o0_1_S1024x1 : S1024x10.Slices ![0, 1] S1024x1
  inb_S1024x10x22_S1024x1x22_0_1_0 : ∀ a, (![0, 1, 0] : Fin 3 → Nat) a + S1024x1x22.size a ≤ S1024x10x22.size a
  slices_S1024x440_o0_120_S1024x40 : S1024x440.Slices ![0, 120] S1024x40
  slices_S1024x10_o0_2_S1024x1 : S1024x10.Slices ![0, 2] S1024x1
  inb_S1024x10x22_S1024x1x22_0_2_0 : ∀ a, (![0, 2, 0] : Fin 3 → Nat) a + S1024x1x22.size a ≤ S1024x10x22.size a
  slices_S1024x440_o0_160_S1024x40 : S1024x440.Slices ![0, 160] S1024x40
  slices_S1024x10_o0_3_S1024x1 : S1024x10.Slices ![0, 3] S1024x1
  inb_S1024x10x22_S1024x1x22_0_3_0 : ∀ a, (![0, 3, 0] : Fin 3 → Nat) a + S1024x1x22.size a ≤ S1024x10x22.size a
  slices_S1024x440_o0_200_S1024x40 : S1024x440.Slices ![0, 200] S1024x40
  slices_S1024x10_o0_4_S1024x1 : S1024x10.Slices ![0, 4] S1024x1
  inb_S1024x10x22_S1024x1x22_0_4_0 : ∀ a, (![0, 4, 0] : Fin 3 → Nat) a + S1024x1x22.size a ≤ S1024x10x22.size a
  slices_S1024x440_o0_240_S1024x40 : S1024x440.Slices ![0, 240] S1024x40
  slices_S1024x10_o0_5_S1024x1 : S1024x10.Slices ![0, 5] S1024x1
  inb_S1024x10x22_S1024x1x22_0_5_0 : ∀ a, (![0, 5, 0] : Fin 3 → Nat) a + S1024x1x22.size a ≤ S1024x10x22.size a
  slices_S1024x440_o0_280_S1024x40 : S1024x440.Slices ![0, 280] S1024x40
  slices_S1024x10_o0_6_S1024x1 : S1024x10.Slices ![0, 6] S1024x1
  inb_S1024x10x22_S1024x1x22_0_6_0 : ∀ a, (![0, 6, 0] : Fin 3 → Nat) a + S1024x1x22.size a ≤ S1024x10x22.size a
  slices_S1024x440_o0_320_S1024x40 : S1024x440.Slices ![0, 320] S1024x40
  slices_S1024x10_o0_7_S1024x1 : S1024x10.Slices ![0, 7] S1024x1
  inb_S1024x10x22_S1024x1x22_0_7_0 : ∀ a, (![0, 7, 0] : Fin 3 → Nat) a + S1024x1x22.size a ≤ S1024x10x22.size a
  slices_S1024x440_o0_360_S1024x40 : S1024x440.Slices ![0, 360] S1024x40
  slices_S1024x10_o0_8_S1024x1 : S1024x10.Slices ![0, 8] S1024x1
  inb_S1024x10x22_S1024x1x22_0_8_0 : ∀ a, (![0, 8, 0] : Fin 3 → Nat) a + S1024x1x22.size a ≤ S1024x10x22.size a
  slices_S1024x440_o0_400_S1024x40 : S1024x440.Slices ![0, 400] S1024x40
  slices_S1024x10_o0_9_S1024x1 : S1024x10.Slices ![0, 9] S1024x1
  inb_S1024x10x22_S1024x1x22_0_9_0 : ∀ a, (![0, 9, 0] : Fin 3 → Nat) a + S1024x1x22.size a ≤ S1024x10x22.size a
  dot_S1024x40_S40x40_S1024x40_1_1_0_0_n_n_wf : DotDims.WF S1024x40 S40x40 S1024x40 [1] [1] [0] [0] [] []
  dot_S1024x40_S10x40_S1024x10_1_1_0_0_n_n_wf : DotDims.WF S1024x40 S10x40 S1024x10 [1] [1] [0] [0] [] []
  dot_S1024x40_S41x40_S1024x41_1_1_0_0_n_n_wf : DotDims.WF S1024x40 S41x40 S1024x41 [1] [1] [0] [0] [] []
  dot_S1024x1_S41x1_S1024x41_1_1_0_0_n_n_wf : DotDims.WF S1024x1 S41x1 S1024x41 [1] [1] [0] [0] [] []
  dot_S1024x41_S41x41_S1024x41_1_1_0_0_n_n_wf : DotDims.WF S1024x41 S41x41 S1024x41 [1] [1] [0] [0] [] []
  dot_S1024x41_S22x41_S1024x22_1_1_0_0_n_n_wf : DotDims.WF S1024x41 S22x41 S1024x22 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x440.size a ≤ S262144x440.size a
  hwx0_0 : ∀ i : grid0.Coords, EltTy.bits .f32 = 32 ∨ (Rect.block (s := S262144x440) S1024x440.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x40.size a ≤ S40x40.size a
  hwx0_1 : ∀ i : grid0.Coords, EltTy.bits .f32 = 32 ∨ (Rect.block (s := S40x40) S40x40.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40.size a ≤ S40.size a
  hwx0_2 : ∀ i : grid0.Coords, EltTy.bits .f32 = 32 ∨ (Rect.block (s := S40) S40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S40x40.size a ≤ S40x40.size a
  hwx0_3 : ∀ i : grid0.Coords, EltTy.bits .f32 = 32 ∨ (Rect.block (s := S40x40) S40x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S40.size a ≤ S40.size a
  hwx0_4 : ∀ i : grid0.Coords, EltTy.bits .f32 = 32 ∨ (Rect.block (s := S40) S40.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x40.size a ≤ S10x40.size a
  hwx0_5 : ∀ i : grid0.Coords, EltTy.bits .f32 = 32 ∨ (Rect.block (s := S10x40) S10x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10.size a ≤ S10.size a
  hwx0_6 : ∀ i : grid0.Coords, EltTy.bits .f32 = 32 ∨ (Rect.block (s := S10) S10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S41x41.size a ≤ S41x41.size a
  hwx0_7 : ∀ i : grid0.Coords, EltTy.bits .f32 = 32 ∨ (Rect.block (s := S41x41) S41x41.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S41.size a ≤ S41.size a
  hwx0_8 : ∀ i : grid0.Coords, EltTy.bits .f32 = 32 ∨ (Rect.block (s := S41) S41.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S41x41.size a ≤ S41x41.size a
  hwx0_9 : ∀ i : grid0.Coords, EltTy.bits .f32 = 32 ∨ (Rect.block (s := S41x41) S41x41.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S41.size a ≤ S41.size a
  hwx0_10 : ∀ i : grid0.Coords, EltTy.bits .f32 = 32 ∨ (Rect.block (s := S41) S41.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S22x41.size a ≤ S22x41.size a
  hwx0_11 : ∀ i : grid0.Coords, EltTy.bits .f32 = 32 ∨ (Rect.block (s := S22x41) S22x41.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S22.size a ≤ S22.size a
  hwx0_12 : ∀ i : grid0.Coords, EltTy.bits .f32 = 32 ∨ (Rect.block (s := S22) S22.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x10x22.size a ≤ S262144x10x22.size a
  hwx0_13 : ∀ i : grid0.Coords, EltTy.bits .f32 = 32 ∨ (Rect.block (s := S262144x10x22) S1024x10x22.size (cc0_transform_13 i) (hinb0_13 i)).WholeWords (EltTy.packing .f32)

variable [Facts₀]

def dot_S1024x40_S40x40_S1024x40_1_1_0_0_n_n : DotDims S1024x40 S40x40 S1024x40 where
  lhsContracting := [1]
  rhsContracting := [1]
  lhsNonContracting := [0]
  rhsNonContracting := [0]
  lhsBatch := []
  rhsBatch := []
  wf := dot_S1024x40_S40x40_S1024x40_1_1_0_0_n_n_wf
def dot_S1024x40_S10x40_S1024x10_1_1_0_0_n_n : DotDims S1024x40 S10x40 S1024x10 where
  lhsContracting := [1]
  rhsContracting := [1]
  lhsNonContracting := [0]
  rhsNonContracting := [0]
  lhsBatch := []
  rhsBatch := []
  wf := dot_S1024x40_S10x40_S1024x10_1_1_0_0_n_n_wf
def dot_S1024x40_S41x40_S1024x41_1_1_0_0_n_n : DotDims S1024x40 S41x40 S1024x41 where
  lhsContracting := [1]
  rhsContracting := [1]
  lhsNonContracting := [0]
  rhsNonContracting := [0]
  lhsBatch := []
  rhsBatch := []
  wf := dot_S1024x40_S41x40_S1024x41_1_1_0_0_n_n_wf
def dot_S1024x1_S41x1_S1024x41_1_1_0_0_n_n : DotDims S1024x1 S41x1 S1024x41 where
  lhsContracting := [1]
  rhsContracting := [1]
  lhsNonContracting := [0]
  rhsNonContracting := [0]
  lhsBatch := []
  rhsBatch := []
  wf := dot_S1024x1_S41x1_S1024x41_1_1_0_0_n_n_wf
def dot_S1024x41_S41x41_S1024x41_1_1_0_0_n_n : DotDims S1024x41 S41x41 S1024x41 where
  lhsContracting := [1]
  rhsContracting := [1]
  lhsNonContracting := [0]
  rhsNonContracting := [0]
  lhsBatch := []
  rhsBatch := []
  wf := dot_S1024x41_S41x41_S1024x41_1_1_0_0_n_n_wf
def dot_S1024x41_S22x41_S1024x22_1_1_0_0_n_n : DotDims S1024x41 S22x41 S1024x22 where
  lhsContracting := [1]
  rhsContracting := [1]
  lhsNonContracting := [0]
  rhsNonContracting := [0]
  lhsBatch := []
  rhsBatch := []
  wf := dot_S1024x41_S22x41_S1024x22_1_1_0_0_n_n_wf

abbrev win0_0 : Pipeline.Window sig grid0 :=
  Pipeline.Window.ofSpec (Memref.whole main_arg0) S1024x440.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S40x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S40x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S10x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S41x41.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S41.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S41x41.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S41.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S22x41.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S22.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S1024x10x22.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S262144x440 : Shape := ⟨2, ![262144, 440]⟩
abbrev S40x40 : Shape := ⟨2, ![40, 40]⟩
abbrev S40 : Shape := ⟨1, ![40]⟩
abbrev S10x40 : Shape := ⟨2, ![10, 40]⟩
abbrev S10 : Shape := ⟨1, ![10]⟩
abbrev S41x41 : Shape := ⟨2, ![41, 41]⟩
abbrev S41 : Shape := ⟨1, ![41]⟩
abbrev S22x41 : Shape := ⟨2, ![22, 41]⟩
abbrev S22 : Shape := ⟨1, ![22]⟩
abbrev S262144x40 : Shape := ⟨2, ![262144, 40]⟩
abbrev S262144x400 : Shape := ⟨2, ![262144, 400]⟩
abbrev S262144x10x40 : Shape := ⟨3, ![262144, 10, 40]⟩
abbrev S1x40 : Shape := ⟨2, ![1, 40]⟩
abbrev S_ : Shape := ⟨0, ![]⟩
abbrev S40x10 : Shape := ⟨2, ![40, 10]⟩
abbrev S262144x10 : Shape := ⟨2, ![262144, 10]⟩
abbrev S1x10 : Shape := ⟨2, ![1, 10]⟩
abbrev S262144 : Shape := ⟨1, ![262144]⟩
abbrev S262144x1 : Shape := ⟨2, ![262144, 1]⟩
abbrev S262144x10x1 : Shape := ⟨3, ![262144, 10, 1]⟩
abbrev S262144x10x41 : Shape := ⟨3, ![262144, 10, 41]⟩
abbrev S1x1x41 : Shape := ⟨3, ![1, 1, 41]⟩
abbrev S262144x10x22 : Shape := ⟨3, ![262144, 10, 22]⟩
abbrev S1x1x22 : Shape := ⟨3, ![1, 1, 22]⟩

abbrev nBuf : Space → Nat
  | .hbm => 88
  | .vmem => 0
  | .smem => 0
  | _ => 0

abbrev bufTy : (tb : Table) → Fin (tcTables nBuf tb) → BufTy
  | .hbm, ⟨0, _⟩ => ⟨S262144x440, .f32⟩
  | .hbm, ⟨1, _⟩ => ⟨S40x40, .f32⟩
  | .hbm, ⟨2, _⟩ => ⟨S40, .f32⟩
  | .hbm, ⟨3, _⟩ => ⟨S40x40, .f32⟩
  | .hbm, ⟨4, _⟩ => ⟨S40, .f32⟩
  | .hbm, ⟨5, _⟩ => ⟨S10x40, .f32⟩
  | .hbm, ⟨6, _⟩ => ⟨S10, .f32⟩
  | .hbm, ⟨7, _⟩ => ⟨S41x41, .f32⟩
  | .hbm, ⟨8, _⟩ => ⟨S41, .f32⟩
  | .hbm, ⟨9, _⟩ => ⟨S41x41, .f32⟩
  | .hbm, ⟨10, _⟩ => ⟨S41, .f32⟩
  | .hbm, ⟨11, _⟩ => ⟨S22x41, .f32⟩
  | .hbm, ⟨12, _⟩ => ⟨S22, .f32⟩
  | .hbm, ⟨13, _⟩ => ⟨S262144x40, .f32⟩
  | .hbm, ⟨14, _⟩ => ⟨S262144x400, .f32⟩
  | .hbm, ⟨15, _⟩ => ⟨S262144x10x40, .f32⟩
  | .hbm, ⟨16, _⟩ => ⟨S40x40, .f32⟩
  | .hbm, ⟨17, _⟩ => ⟨S262144x40, .f32⟩
  | .hbm, ⟨18, _⟩ => ⟨S1x40, .f32⟩
  | .hbm, ⟨19, _⟩ => ⟨S262144x40, .f32⟩
  | .hbm, ⟨20, _⟩ => ⟨S262144x40, .f32⟩
  | .hbm, ⟨21, _⟩ => ⟨S_, .f32⟩
  | .hbm, ⟨22, _⟩ => ⟨S262144x40, .f32⟩
  | .hbm, ⟨23, _⟩ => ⟨S262144x40, .f32⟩
  | .hbm, ⟨24, _⟩ => ⟨S40x40, .f32⟩
  | .hbm, ⟨25, _⟩ => ⟨S262144x40, .f32⟩
  | .hbm, ⟨26, _⟩ => ⟨S1x40, .f32⟩
  | .hbm, ⟨27, _⟩ => ⟨S262144x40, .f32⟩
  | .hbm, ⟨28, _⟩ => ⟨S262144x40, .f32⟩
  | .hbm, ⟨29, _⟩ => ⟨S_, .f32⟩
  | .hbm, ⟨30, _⟩ => ⟨S262144x40, .f32⟩
  | .hbm, ⟨31, _⟩ => ⟨S262144x40, .f32⟩
  | .hbm, ⟨32, _⟩ => ⟨S40x10, .f32⟩
  | .hbm, ⟨33, _⟩ => ⟨S262144x10, .f32⟩
  | .hbm, ⟨34, _⟩ => ⟨S1x10, .f32⟩
  | .hbm, ⟨35, _⟩ => ⟨S262144x10, .f32⟩
  | .hbm, ⟨36, _⟩ => ⟨S262144x10, .f32⟩
  | .hbm, ⟨37, _⟩ => ⟨S_, .f32⟩
  | .hbm, ⟨38, _⟩ => ⟨S262144, .f32⟩
  | .hbm, ⟨39, _⟩ => ⟨S_, .f32⟩
  | .hbm, ⟨40, _⟩ => ⟨S262144, .f32⟩
  | .hbm, ⟨41, _⟩ => ⟨S262144, .f32⟩
  | .hbm, ⟨42, _⟩ => ⟨S262144x1, .f32⟩
  | .hbm, ⟨43, _⟩ => ⟨S262144x10, .f32⟩
  | .hbm, ⟨44, _⟩ => ⟨S262144x10, .f32⟩
  | .hbm, ⟨45, _⟩ => ⟨S262144x10, .f32⟩
  | .hbm, ⟨46, _⟩ => ⟨S_, .f32⟩
  | .hbm, ⟨47, _⟩ => ⟨S262144, .f32⟩
  | .hbm, ⟨48, _⟩ => ⟨S262144x1, .f32⟩
  | .hbm, ⟨49, _⟩ => ⟨S262144x10, .f32⟩
  | .hbm, ⟨50, _⟩ => ⟨S262144x10, .f32⟩
  | .hbm, ⟨51, _⟩ => ⟨S262144x10x1, .f32⟩
  | .hbm, ⟨52, _⟩ => ⟨S262144x10x41, .f32⟩
  | .hbm, ⟨53, _⟩ => ⟨S262144x10x41, .f32⟩
  | .hbm, ⟨54, _⟩ => ⟨S1x1x41, .f32⟩
  | .hbm, ⟨55, _⟩ => ⟨S262144x10x41, .f32⟩
  | .hbm, ⟨56, _⟩ => ⟨S262144x10x41, .f32⟩
  | .hbm, ⟨57, _⟩ => ⟨S_, .f32⟩
  | .hbm, ⟨58, _⟩ => ⟨S262144x10x41, .f32⟩
  | .hbm, ⟨59, _⟩ => ⟨S262144x10x41, .f32⟩
  | .hbm, ⟨60, _⟩ => ⟨S262144x10x41, .f32⟩
  | .hbm, ⟨61, _⟩ => ⟨S1x1x41, .f32⟩
  | .hbm, ⟨62, _⟩ => ⟨S262144x10x41, .f32⟩
  | .hbm, ⟨63, _⟩ => ⟨S262144x10x41, .f32⟩
  | .hbm, ⟨64, _⟩ => ⟨S_, .f32⟩
  | .hbm, ⟨65, _⟩ => ⟨S262144x10x41, .f32⟩
  | .hbm, ⟨66, _⟩ => ⟨S262144x10x41, .f32⟩
  | .hbm, ⟨67, _⟩ => ⟨S262144x10x22, .f32⟩
  | .hbm, ⟨68, _⟩ => ⟨S1x1x22, .f32⟩
  | .hbm, ⟨69, _⟩ => ⟨S262144x10x22, .f32⟩
  | .hbm, ⟨70, _⟩ => ⟨S262144x10x22, .f32⟩
  | .hbm, ⟨71, _⟩ => ⟨S_, .f32⟩
  | .hbm, ⟨72, _⟩ => ⟨S262144x10, .f32⟩
  | .hbm, ⟨73, _⟩ => ⟨S_, .f32⟩
  | .hbm, ⟨74, _⟩ => ⟨S262144x10, .f32⟩
  | .hbm, ⟨75, _⟩ => ⟨S262144x10, .f32⟩
  | .hbm, ⟨76, _⟩ => ⟨S262144x10x1, .f32⟩
  | .hbm, ⟨77, _⟩ => ⟨S262144x10x22, .f32⟩
  | .hbm, ⟨78, _⟩ => ⟨S262144x10x22, .f32⟩
  | .hbm, ⟨79, _⟩ => ⟨S262144x10x22, .f32⟩
  | .hbm, ⟨80, _⟩ => ⟨S_, .f32⟩
  | .hbm, ⟨81, _⟩ => ⟨S262144x10, .f32⟩
  | .hbm, ⟨82, _⟩ => ⟨S262144x10x1, .f32⟩
  | .hbm, ⟨83, _⟩ => ⟨S262144x10x22, .f32⟩
  | .hbm, ⟨84, _⟩ => ⟨S262144x10x22, .f32⟩
  | .hbm, ⟨85, _⟩ => ⟨S262144x10x1, .f32⟩
  | .hbm, ⟨86, _⟩ => ⟨S262144x10x22, .f32⟩
  | .hbm, ⟨87, _⟩ => ⟨S262144x10x22, .f32⟩
  | _, _ => ⟨S262144x440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_cst : Ref sig .tc := ⟨.hbm, 29, rfl⟩
abbrev main_call1_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_cst_0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call2_cst : Ref sig .tc := ⟨.hbm, 57, rfl⟩
abbrev main_call2_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call3_cst : Ref sig .tc := ⟨.hbm, 64, rfl⟩
abbrev main_call3_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_2 : Ref sig .tc := ⟨.hbm, 71, rfl⟩
abbrev main_v47 : Ref sig .tc := ⟨.hbm, 72, rfl⟩
abbrev main_cst_3 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_4 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  slices_S262144x440_S262144x40_0_0 : S262144x440.Slices ![0, 0] S262144x40
  slices_S262144x440_S262144x400_0_40 : S262144x440.Slices ![0, 40] S262144x400
  shapeCasts_S262144x400_S262144x10x40 : S262144x400.ShapeCasts S262144x10x40
  transposes_S40x40_S40x40_1_0 : S40x40.Transposes [1, 0] S40x40
  bcast_S40_S1x40_1 : S40.BroadcastsInDim S1x40 (![1] : Fin 1 → Fin S1x40.rank)
  bcast_S1x40_S262144x40_0_1 : S1x40.BroadcastsInDim S262144x40 (![0, 1] : Fin 2 → Fin S262144x40.rank)
  bcast_S_S262144x40 : S_.BroadcastsInDim S262144x40 (![] : Fin 0 → Fin S262144x40.rank)
  transposes_S10x40_S40x10_1_0 : S10x40.Transposes [1, 0] S40x10
  bcast_S10_S1x10_1 : S10.BroadcastsInDim S1x10 (![1] : Fin 1 → Fin S1x10.rank)
  bcast_S1x10_S262144x10_0_1 : S1x10.BroadcastsInDim S262144x10 (![0, 1] : Fin 2 → Fin S262144x10.rank)
  reducesTo_S262144x10_S262144_d1 : S262144x10.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x10_0_1 : S262144x1.BroadcastsInDim S262144x10 (![0, 1] : Fin 2 → Fin S262144x10.rank)
  bcast_S262144x10_S262144x10x1_0_1 : S262144x10.BroadcastsInDim S262144x10x1 (![0, 1] : Fin 2 → Fin S262144x10x1.rank)
  concatenates_S262144x10x40_S262144x10x1_S262144x10x41_d2 : Shape.Concatenates [S262144x10x40, S262144x10x1] S262144x10x41 2
  bcast_S41_S1x1x41_2 : S41.BroadcastsInDim S1x1x41 (![2] : Fin 1 → Fin S1x1x41.rank)
  bcast_S1x1x41_S262144x10x41_0_1_2 : S1x1x41.BroadcastsInDim S262144x10x41 (![0, 1, 2] : Fin 3 → Fin S262144x10x41.rank)
  bcast_S_S262144x10x41 : S_.BroadcastsInDim S262144x10x41 (![] : Fin 0 → Fin S262144x10x41.rank)
  bcast_S22_S1x1x22_2 : S22.BroadcastsInDim S1x1x22 (![2] : Fin 1 → Fin S1x1x22.rank)
  bcast_S1x1x22_S262144x10x22_0_1_2 : S1x1x22.BroadcastsInDim S262144x10x22 (![0, 1, 2] : Fin 3 → Fin S262144x10x22.rank)
  reducesTo_S262144x10x22_S262144x10_d2 : S262144x10x22.ReducesTo [2] S262144x10
  bcast_S_S262144x10 : S_.BroadcastsInDim S262144x10 (![] : Fin 0 → Fin S262144x10.rank)
  bcast_S262144x10x1_S262144x10x22_0_1_2 : S262144x10x1.BroadcastsInDim S262144x10x22 (![0, 1, 2] : Fin 3 → Fin S262144x10x22.rank)
  dot_S262144x40_S40x40_S262144x40_1_0_0_1_n_n_wf : DotDims.WF S262144x40 S40x40 S262144x40 [1] [0] [0] [1] [] []
  dot_S262144x40_S40x10_S262144x10_1_0_0_1_n_n_wf : DotDims.WF S262144x40 S40x10 S262144x10 [1] [0] [0] [1] [] []
  dot_S262144x10x41_S41x41_S262144x10x41_2_1_01_0_n_n_wf : DotDims.WF S262144x10x41 S41x41 S262144x10x41 [2] [1] [0, 1] [0] [] []
  dot_S262144x10x41_S22x41_S262144x10x22_2_1_01_0_n_n_wf : DotDims.WF S262144x10x41 S22x41 S262144x10x22 [2] [1] [0, 1] [0] [] []

variable [Facts₀]

def dot_S262144x40_S40x40_S262144x40_1_0_0_1_n_n : DotDims S262144x40 S40x40 S262144x40 where
  lhsContracting := [1]
  rhsContracting := [0]
  lhsNonContracting := [0]
  rhsNonContracting := [1]
  lhsBatch := []
  rhsBatch := []
  wf := dot_S262144x40_S40x40_S262144x40_1_0_0_1_n_n_wf
def dot_S262144x40_S40x10_S262144x10_1_0_0_1_n_n : DotDims S262144x40 S40x10 S262144x10 where
  lhsContracting := [1]
  rhsContracting := [0]
  lhsNonContracting := [0]
  rhsNonContracting := [1]
  lhsBatch := []
  rhsBatch := []
  wf := dot_S262144x40_S40x10_S262144x10_1_0_0_1_n_n_wf
def dot_S262144x10x41_S41x41_S262144x10x41_2_1_01_0_n_n : DotDims S262144x10x41 S41x41 S262144x10x41 where
  lhsContracting := [2]
  rhsContracting := [1]
  lhsNonContracting := [0, 1]
  rhsNonContracting := [0]
  lhsBatch := []
  rhsBatch := []
  wf := dot_S262144x10x41_S41x41_S262144x10x41_2_1_01_0_n_n_wf
def dot_S262144x10x41_S22x41_S262144x10x22_2_1_01_0_n_n : DotDims S262144x10x41 S22x41 S262144x10x22 where
  lhsContracting := [2]
  rhsContracting := [1]
  lhsNonContracting := [0, 1]
  rhsNonContracting := [0]
  lhsBatch := []
  rhsBatch := []
  wf := dot_S262144x10x41_S22x41_S262144x10x22_2_1_01_0_n_n_wf

class Facts : Prop extends Facts₀ where

variable [Facts]
-- ==== Proof.RowSpec.lean ====
/-
  What one row of the input determines, on the extended reals.

  Every output row depends on its own input row only.  A row `xr` has 440 entries: the first 40 feed a
  three-layer perceptron whose last layer is normalised by a softmax into ten weights `gate s`; the remaining
  400 are ten segments of 40, and segment `s`, extended by its own weight `gate s` as a 41st entry, feeds a second
  three-layer perceptron (shared by the ten segments) whose softmax over 22 classes is scaled by `gate s`.

  A dense layer is `∑ k, a k * w k + b`; the rectifier is `max · 0`; the softmax subtracts the row's maximum
  (a fold of `max` from −∞, joined once more with −∞ as both programs do), exponentiates and divides by the sum.
-/
import Idealize.ShloMosaic.PureOps.Ideal
import Idealize.ShloMosaic.PureOps.Ideal.Laws
import Idealize.ShloMosaic.Lib.ValueIdx

noncomputable section

namespace Cert.RowSpec

open Idealize.ShloMosaic

/-- −∞, kept as the word both programs print. -/
abbrev negInf : EReal := Ideal.ofBits .f32 0xFF800000#32

/-- One output of a dense layer: the inner product with a weight row, plus the bias. -/
def dense {K : ℕ} (a w : Fin K → EReal) (b : EReal) : EReal := (∑ k, a k * w k) + b

/-- The rectifier. -/
def relu (v : EReal) : EReal := max v 0

/-- The maximum of a row, from −∞. -/
def rowMax {N : ℕ} (l : Fin N → EReal) : EReal := max negInf ((Finset.univ : Finset (Fin N)).fold max negInf l)

/-- The softmax of a row of logits at one position. -/
def softmax {N : ℕ} (l : Fin N → EReal) (j : Fin N) : EReal :=
  Ideal.div (Ideal.exp (l j - rowMax l)) (∑ k, Ideal.exp (l k - rowMax l))

/-- The thirteen parameter arrays, by row and column. -/
structure Params where
  W1 : Fin 40 → Fin 40 → EReal
  b1 : Fin 40 → EReal
  W2 : Fin 40 → Fin 40 → EReal
  b2 : Fin 40 → EReal
  W3 : Fin 10 → Fin 40 → EReal
  b3 : Fin 10 → EReal
  V1 : Fin 41 → Fin 41 → EReal
  c1 : Fin 41 → EReal
  V2 : Fin 41 → Fin 41 → EReal
  c2 : Fin 41 → EReal
  V3 : Fin 22 → Fin 41 → EReal
  c3 : Fin 22 → EReal

variable (P : Params) (xr : Fin 440 → EReal)

/-- The first 40 entries of the row. -/
def head (k : Fin 40) : EReal := xr ⟨k.val, by have := k.isLt; omega⟩

/-- Entry `k` of segment `s`: position `40 + 40 s + k` of the row. -/
def segEntry (s : Fin 10) (k : Fin 40) : EReal := xr ⟨40 + 40 * s.val + k.val, by have := k.isLt; have := s.isLt; omega⟩

def hid1 (j : Fin 40) : EReal := relu (dense (head xr) (P.W1 j) (P.b1 j))
def hid2 (j : Fin 40) : EReal := relu (dense (hid1 P xr) (P.W2 j) (P.b2 j))
def logitA (j : Fin 10) : EReal := dense (hid2 P xr) (P.W3 j) (P.b3 j)
/-- The ten segment weights. -/
def gate (s : Fin 10) : EReal := softmax (logitA P xr) s

/-- The 41 inputs of the second perceptron for segment `s`: the segment, then its weight. -/
def smallIn (s : Fin 10) (k : Fin 41) : EReal :=
  if h : k.val < 40 then segEntry xr s ⟨k.val, h⟩ else gate P xr s

def sh1 (s : Fin 10) (j : Fin 41) : EReal := relu (dense (smallIn P xr s) (P.V1 j) (P.c1 j))
def sh2 (s : Fin 10) (j : Fin 41) : EReal := relu (dense (sh1 P xr s) (P.V2 j) (P.c2 j))
def logitS (s : Fin 10) (j : Fin 22) : EReal := dense (sh2 P xr s) (P.V3 j) (P.c3 j)

/-- The output row at segment `s`, class `o`. -/
def rowOut (s : Fin 10) (o : Fin 22) : EReal := softmax (logitS P xr s) o * gate P xr s

/-- The first layer of the second perceptron with its 41-term inner product split as the kernel computes it:
    forty terms over the segment, one term for the weight; only commutativity and associativity of `+`. -/
theorem dense_smallIn (s : Fin 10) (w : Fin 41 → EReal) (b : EReal) :
    dense (smallIn P xr s) w b
      = ((∑ k : Fin 40, segEntry xr s k * w (Fin.castSucc k)) + (∑ _k : Fin 1, gate P xr s * w (Fin.last 40))) + b := by
  unfold dense
  rw [Fin.sum_univ_castSucc (fun k : Fin 41 => smallIn P xr s k * w k)]
  have h1 : ∀ k : Fin 40, smallIn P xr s (Fin.castSucc k) = segEntry xr s k := fun k => by
    have hk : (Fin.castSucc k).val < 40 := k.isLt
    simp only [smallIn, dif_pos hk]
    rfl
  have h2 : smallIn P xr s (Fin.last 40) = gate P xr s := by
    have hl : ¬ (Fin.last 40).val < 40 := by simp
    simp only [smallIn, dif_neg hl]
  simp only [h1, h2, Finset.univ_unique, Finset.sum_singleton]

/-- The parameter arrays read by row and column. -/
def paramsOf (x1 : (⟨2, ![40, 40]⟩ : Shape).Idx → EReal) (x2 : (⟨1, ![40]⟩ : Shape).Idx → EReal)
    (x3 : (⟨2, ![40, 40]⟩ : Shape).Idx → EReal) (x4 : (⟨1, ![40]⟩ : Shape).Idx → EReal)
    (x5 : (⟨2, ![10, 40]⟩ : Shape).Idx → EReal) (x6 : (⟨1, ![10]⟩ : Shape).Idx → EReal)
    (x7 : (⟨2, ![41, 41]⟩ : Shape).Idx → EReal) (x8 : (⟨1, ![41]⟩ : Shape).Idx → EReal)
    (x9 : (⟨2, ![41, 41]⟩ : Shape).Idx → EReal) (x10 : (⟨1, ![41]⟩ : Shape).Idx → EReal)
    (x11 : (⟨2, ![22, 41]⟩ : Shape).Idx → EReal) (x12 : (⟨1, ![22]⟩ : Shape).Idx → EReal) : Params where
  W1 := fun j k => x1 (ValueIdx.ix2 j k)
  b1 := fun j => x2 (ValueIdx.ix1 j)
  W2 := fun j k => x3 (ValueIdx.ix2 j k)
  b2 := fun j => x4 (ValueIdx.ix1 j)
  W3 := fun j k => x5 (ValueIdx.ix2 j k)
  b3 := fun j => x6 (ValueIdx.ix1 j)
  V1 := fun j k => x7 (ValueIdx.ix2 j k)
  c1 := fun j => x8 (ValueIdx.ix1 j)
  V2 := fun j k => x9 (ValueIdx.ix2 j k)
  c2 := fun j => x10 (ValueIdx.ix1 j)
  V3 := fun j k => x11 (ValueIdx.ix2 j k)
  c3 := fun j => x12 (ValueIdx.ix1 j)

/-- Row `b` of an array with 440 columns. -/
def rowOf {N : ℕ} (x0 : (⟨2, ![N, 440]⟩ : Shape).Idx → EReal) (b : Fin N) : Fin 440 → EReal :=
  fun c => x0 (ValueIdx.ix2 b c)

end Cert.RowSpec

end
-- ==== Proof.LibRowOps.lean ====
/-
  Block operations of a row-wise perceptron, read at one index on the extended reals, for arbitrary extents:
  the product of a block of rows with a weight matrix, both contracted on their last axis; a bias row spread down
  a block; a column spread across a block; a slice of columns; the maximum and the sum of each row; and the reshape
  of a rank-2 block to a block with a unit middle axis.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-! ## Rows against rows: the contraction `[1], [1], [0], [0]` -/

/-- The dimension numbers that contract the last axis of an `M × K` block with the last axis of an `N × K` matrix. -/
abbrev rowsDot (M K N : ℕ) (h : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := h

section Dot
variable (M K N : ℕ) (h : DotDims.WF ⟨2, ![M, K]⟩ ⟨2, ![N, K]⟩ ⟨2, ![M, N]⟩ [1] [1] [0] [0] [] [])

theorem rowsDot_lhs_0 (i : (⟨2, ![M, N]⟩ : Shape).Idx) (q : (rowsDot M K N h).contr.Idx) :
    ((rowsDot M K N h).lhsIdx i q 0).val = (i 0).val := by
  unfold DotDims.lhsIdx
  rw [dif_neg (show ¬(0 : Fin (⟨2, ![M, K]⟩ : Shape).rank) ∈ (rowsDot M K N h).lhsBatch from List.not_mem_nil),
    dif_pos (show (0 : Fin (⟨2, ![M, K]⟩ : Shape).rank) ∈ (rowsDot M K N h).lhsNonContracting from List.mem_singleton.mpr rfl)]
  rfl
theorem rowsDot_lhs_1 (i : (⟨2, ![M, N]⟩ : Shape).Idx) (q : (rowsDot M K N h).contr.Idx) :
    ((rowsDot M K N h).lhsIdx i q 1).val = (q ⟨0, Nat.one_pos⟩).val :=
  (rowsDot M K N h).lhsIdx_val_of_single rfl i q
theorem rowsDot_rhs_0 (i : (⟨2, ![M, N]⟩ : Shape).Idx) (q : (rowsDot M K N h).contr.Idx) :
    ((rowsDot M K N h).rhsIdx i q 0).val = (i 1).val := by
  unfold DotDims.rhsIdx
  rw [dif_neg (show ¬(0 : Fin (⟨2, ![N, K]⟩ : Shape).rank) ∈ (rowsDot M K N h).rhsBatch from List.not_mem_nil),
    dif_pos (show (0 : Fin (⟨2, ![N, K]⟩ : Shape).rank) ∈ (rowsDot M K N h).rhsNonContracting from List.mem_singleton.mpr rfl)]
  rfl
theorem rowsDot_rhs_1 (i : (⟨2, ![M, N]⟩ : Shape).Idx) (q : (rowsDot M K N h).contr.Idx) :
    ((rowsDot M K N h).rhsIdx i q 1).val = (q ⟨0, Nat.one_pos⟩).val :=
  (rowsDot M K N h).rhsIdx_val_of_single rfl i q

/-- The product into a zero accumulator, at row `r` and column `j`: the inner product of row `r` of the block with row
    `j` of the matrix. -/
theorem matmul_rowsDot_apply {φ₁ φ₂ : FTy} (lhs : FVec Ideal ⟨2, ![M, K]⟩ φ₁) (rhs : FVec Ideal ⟨2, ![N, K]⟩ φ₂)
    (r : Fin M) (j : Fin N) :
    matmul (rowsDot M K N h) none lhs rhs (constant (F := Ideal) ⟨2, ![M, N]⟩ .f32 0x00000000#32) (ix2 r j)
      = ∑ k : Fin K, lhs (ix2 r k) * rhs (ix2 j k) := by
  simp only [matmul]
  rw [Ideal.matmul_constant_zero_apply, ← Equiv.sum_comp (contrEquiv1 (rowsDot M K N h) K rfl rfl).symm]
  refine Finset.sum_congr rfl fun k _ => ?_
  have hk := contrEquiv1_symm_val (rowsDot M K N h) K rfl rfl k
  have el : (rowsDot M K N h).lhsIdx (ix2 r j) ((contrEquiv1 (rowsDot M K N h) K rfl rfl).symm k) = ix2 r k :=
    funext fun a => Fin.ext (by
      match a with
      | ⟨0, _⟩ => exact rowsDot_lhs_0 M K N h _ _
      | ⟨1, _⟩ => exact (rowsDot_lhs_1 M K N h _ _).trans hk)
  have er : (rowsDot M K N h).rhsIdx (ix2 r j) ((contrEquiv1 (rowsDot M K N h) K rfl rfl).symm k) = ix2 j k :=
    funext fun a => Fin.ext (by
      match a with
      | ⟨0, _⟩ => exact rowsDot_rhs_0 M K N h _ _
      | ⟨1, _⟩ => exact (rowsDot_rhs_1 M K N h _ _).trans hk)
  rw [el, er]

end Dot

/-! ## Layout -/

section Layout
variable {α : Type}

/-- A vector of `N` entries laid as one row and spread down `M` rows reads its entry of the column. -/
theorem biasRow_apply (M N : ℕ) (b : (⟨1, ![N]⟩ : Shape).Idx → α) (hsc : (⟨1, ![N]⟩ : Shape).ShapeCasts ⟨2, ![1, N]⟩)
    (hbc : (⟨2, ![1, N]⟩ : Shape).Broadcasts ⟨2, ![M, N]⟩) (r : Fin M) (j : Fin N) :
    broadcastTo ⟨2, ![M, N]⟩ (shapeCast ⟨2, ![1, N]⟩ b hsc) hbc (ix2 r j) = b (ix1 j) := by
  refine (broadcastTo_apply _ hbc (ix2 r j) (ix2 (⟨0, Nat.one_pos⟩ : Fin 1) j) fun a => ?_).trans ?_
  · match a with
    | ⟨0, _⟩ => rfl
    | ⟨1, _⟩ =>
      show j.val = if N = 1 then 0 else j.val
      have := j.isLt
      split <;> omega
  · refine shapeCast_apply b hsc _ (ix1 j) ?_
    rw [Shape.rowMajor_val_one, Shape.rowMajor_val_two]
    show j.val = 0 * N + j.val
    omega

/-- A vector of `M` entries laid as one column and spread across `N` columns reads its entry of the row. -/
theorem colSpread_apply (M N : ℕ) (v : (⟨1, ![M]⟩ : Shape).Idx → α) (hsc : (⟨1, ![M]⟩ : Shape).ShapeCasts ⟨2, ![M, 1]⟩)
    (hbc : (⟨2, ![M, 1]⟩ : Shape).Broadcasts ⟨2, ![M, N]⟩) (r : Fin M) (j : Fin N) :
    broadcastTo ⟨2, ![M, N]⟩ (shapeCast ⟨2, ![M, 1]⟩ v hsc) hbc (ix2 r j) = v (ix1 r) := by
  refine (broadcastTo_apply _ hbc (ix2 r j) (ix2 r (⟨0, Nat.one_pos⟩ : Fin 1)) fun a => ?_).trans ?_
  · match a with
    | ⟨0, _⟩ =>
      show r.val = if M = 1 then 0 else r.val
      have := r.isLt
      split <;> omega
    | ⟨1, _⟩ => rfl
  · refine shapeCast_apply v hsc _ (ix1 r) ?_
    rw [Shape.rowMajor_val_one, Shape.rowMajor_val_two]
    show r.val = r.val * 1 + 0
    omega

/-- A one-column block spread across `N` columns reads its entry of the row. -/
theorem colBlock_apply (M N : ℕ) (c : (⟨2, ![M, 1]⟩ : Shape).Idx → α)
    (hbc : (⟨2, ![M, 1]⟩ : Shape).Broadcasts ⟨2, ![M, N]⟩) (r : Fin M) (j : Fin N) :
    broadcastTo ⟨2, ![M, N]⟩ c hbc (ix2 r j) = c (ix2 r (⟨0, Nat.one_pos⟩ : Fin 1)) := by
  refine broadcastTo_apply _ hbc (ix2 r j) (ix2 r (⟨0, Nat.one_pos⟩ : Fin 1)) fun a => ?_
  match a with
  | ⟨0, _⟩ =>
    show r.val = if M = 1 then 0 else r.val
    have := r.isLt
    split <;> omega
  | ⟨1, _⟩ => rfl

/-- The `n` columns from column `o` on. -/
theorem sliceCols_apply (M W n o : ℕ) (ho : o + n ≤ W) (x : (⟨2, ![M, W]⟩ : Shape).Idx → α)
    (h : (⟨2, ![M, W]⟩ : Shape).Slices ![0, o] ⟨2, ![M, n]⟩) (r : Fin M) (k : Fin n) :
    extractStridedSlice ⟨2, ![M, n]⟩ ![0, o] x h (ix2 r k) = x (ix2 r (⟨o + k.val, by have := k.isLt; omega⟩ : Fin W)) := by
  refine extractStridedSlice_apply ![0, o] x h (ix2 r k) _ fun a => ?_
  match a with
  | ⟨0, _⟩ => show r.val = 0 + r.val; omega
  | ⟨1, _⟩ => rfl

/-- A rank-2 block given a unit middle axis. -/
theorem addUnitMid_apply (M N : ℕ) (v : (⟨2, ![M, N]⟩ : Shape).Idx → α)
    (h : (⟨2, ![M, N]⟩ : Shape).ShapeCasts ⟨3, ![M, 1, N]⟩) (r : Fin M) (z : Fin 1) (o : Fin N) :
    shapeCast ⟨3, ![M, 1, N]⟩ v h (ix3 r z o) = v (ix2 r o) := by
  refine shapeCast_apply v h _ (ix2 r o) ?_
  rw [Shape.rowMajor_val_two, Shape.rowMajor_val_three]
  show r.val * N + o.val = (r.val * 1 + z.val) * N + o.val
  have hz : z.val = 0 := by have := z.isLt; omega
  rw [hz, Nat.mul_one, Nat.add_zero]

end Layout

/-! ## A row's maximum and sum -/

section Reduce
variable (M N : ℕ)

/-- The index over row `r` with column `k` put back. -/
theorem lift_row (h : (⟨2, ![M, N]⟩ : Shape).Reduces [1] ⟨1, ![M]⟩) (r : Fin M) (k : Fin N) :
    h.lift (ix1 r) k = ix2 r k :=
  funext fun a => Fin.ext (by
    match a with
    | ⟨0, _⟩ => rfl
    | ⟨1, _⟩ => rfl)

/-- The maximum of each row from the word `acc`, at row `r`: the fold of `max` over the columns. -/
theorem rowMax_apply (l : FVec Ideal ⟨2, ![M, N]⟩ .f32) (acc : BitVec 32)
    (h : (⟨2, ![M, N]⟩ : Shape).Reduces [1] ⟨1, ![M]⟩) (hφ : FKind.Formats .f32)
    (hacc : acc = FKind.maximumf.neutral .f32 hφ) (r : Fin M) :
    multiReduction .maximumf [1] ⟨1, ![M]⟩ l acc h hφ hacc (ix1 r)
      = (Finset.univ : Finset (Fin N)).fold max (Ideal.ofBits .f32 acc) (fun k => l (ix2 r k)) := by
  refine (Ideal.multiReduction_maximumf_single l acc h hφ hacc (ix1 r)).trans ?_
  exact congrArg (fun f : Fin N → EReal => (Finset.univ : Finset (Fin N)).fold max (Ideal.ofBits .f32 acc) f)
    (funext fun k => congrArg l (lift_row M N h r k))

/-- The sum of each row, at row `r`. -/
theorem rowSum_apply (e : FVec Ideal ⟨2, ![M, N]⟩ .f32) (acc : BitVec 32)
    (h : (⟨2, ![M, N]⟩ : Shape).Reduces [1] ⟨1, ![M]⟩) (hφ : FKind.Formats .f32)
    (hacc : acc = FKind.add.neutral .f32 hφ) (r : Fin M) :
    multiReduction .add [1] ⟨1, ![M]⟩ e acc h hφ hacc (ix1 r) = ∑ k : Fin N, e (ix2 r k) := by
  refine (Ideal.multiReduction_add_single e acc h hφ hacc (ix1 r)).trans ?_
  exact Finset.sum_congr rfl fun k _ => congrArg e (lift_row M N h r k)

end Reduce

/-! ## The softmax of each row of a block -/

section Softmax
variable (M N : ℕ) (hred : (⟨2, ![M, N]⟩ : Shape).Reduces [1] ⟨1, ![M]⟩)
  (hsc : (⟨1, ![M]⟩ : Shape).ShapeCasts ⟨2, ![M, 1]⟩) (hbc : (⟨2, ![M, 1]⟩ : Shape).Broadcasts ⟨2, ![M, N]⟩)

/-- Each row's maximum from −∞, joined once more with −∞. -/
def rowMaxV (l : FVec Ideal ⟨2, ![M, N]⟩ .f32) : FVec Ideal ⟨1, ![M]⟩ .f32 :=
  maximumf (broadcast ⟨1, ![M]⟩ (Scalar.ofBits (F := Ideal) .f32 0xFF800000#32))
    (multiReduction .maximumf [1] ⟨1, ![M]⟩ l 0xFF800000#32 hred (.inl rfl) rfl)

/-- The exponential of each entry less its row's maximum. -/
def expShiftV (l : FVec Ideal ⟨2, ![M, N]⟩ .f32) : FVec Ideal ⟨2, ![M, N]⟩ .f32 :=
  exp (subf l (broadcastTo ⟨2, ![M, N]⟩ (shapeCast ⟨2, ![M, 1]⟩ (rowMaxV M N hred l) hsc) hbc))

/-- Each row's sum of those exponentials, spread back across the row. -/
def expSumV (l : FVec Ideal ⟨2, ![M, N]⟩ .f32) : FVec Ideal ⟨2, ![M, N]⟩ .f32 :=
  broadcastTo ⟨2, ![M, N]⟩ (shapeCast ⟨2, ![M, 1]⟩
    (multiReduction .add [1] ⟨1, ![M]⟩ (expShiftV M N hred hsc hbc l) 0x00000000#32 hred (.inl rfl) rfl) hsc) hbc

/-- The softmax of each row. -/
def softmaxV (l : FVec Ideal ⟨2, ![M, N]⟩ .f32) : FVec Ideal ⟨2, ![M, N]⟩ .f32 :=
  divf (expShiftV M N hred hsc hbc l) (expSumV M N hred hsc hbc l)

theorem rowMaxV_apply (l : FVec Ideal ⟨2, ![M, N]⟩ .f32) (r : Fin M) :
    rowMaxV M N hred l (ix1 r)
      = max (Ideal.ofBits .f32 0xFF800000#32)
          ((Finset.univ : Finset (Fin N)).fold max (Ideal.ofBits .f32 0xFF800000#32) (fun k => l (ix2 r k))) := by
  unfold rowMaxV
  rw [maximumf_apply, broadcast_apply]
  exact congrArg (max (Ideal.ofBits .f32 0xFF800000#32)) (rowMax_apply M N l 0xFF800000#32 hred (.inl rfl) rfl r)

theorem expShiftV_apply (l : FVec Ideal ⟨2, ![M, N]⟩ .f32) (r : Fin M) (j : Fin N) :
    expShiftV M N hred hsc hbc l (ix2 r j)
      = Ideal.exp (l (ix2 r j) - max (Ideal.ofBits .f32 0xFF800000#32)
          ((Finset.univ : Finset (Fin N)).fold max (Ideal.ofBits .f32 0xFF800000#32) (fun k => l (ix2 r k)))) := by
  unfold expShiftV
  show Ideal.exp (subf l _ (ix2 r j)) = _
  rw [subf_apply, colSpread_apply, rowMaxV_apply]

theorem softmaxV_apply (l : FVec Ideal ⟨2, ![M, N]⟩ .f32) (r : Fin M) (j : Fin N) :
    softmaxV M N hred hsc hbc l (ix2 r j)
      = Ideal.div (Ideal.exp (l (ix2 r j) - max (Ideal.ofBits .f32 0xFF800000#32)
            ((Finset.univ : Finset (Fin N)).fold max (Ideal.ofBits .f32 0xFF800000#32) (fun k => l (ix2 r k)))))
          (∑ k' : Fin N, Ideal.exp (l (ix2 r k') - max (Ideal.ofBits .f32 0xFF800000#32)
            ((Finset.univ : Finset (Fin N)).fold max (Ideal.ofBits .f32 0xFF800000#32) (fun k => l (ix2 r k))))) := by
  unfold softmaxV expSumV
  rw [divf_apply, colSpread_apply]
  refine congrArg₂ Ideal.div (expShiftV_apply M N hred hsc hbc l r j)
    ((rowSum_apply M N (expShiftV M N hred hsc hbc l) 0x00000000#32 hred (.inl rfl) rfl r).trans ?_)
  exact Finset.sum_congr rfl fun k _ => expShiftV_apply M N hred hsc hbc l r k

end Softmax

end Cert.LibRowOps

end
-- ==== Proof.SegTerm.lean ====
/-
  One segment of the block as one term. The kernel body, at every one of its ten segments, takes forty columns of the
  input block and one column of the gates, runs the shared three-layer perceptron on them (the first layer as two
  products: forty terms and one term), normalises the 22 logits of each row and scales them by the gate's column.
  `segOut` is that computation with the two column offsets as parameters; the body's ten stored values are its ten
  instances, each by unfolding.
-/
import proofs.«148911_j429496729976_1_alg».proof.Proof.Gen.KernelIdeal.Skeleton
import proofs.«148911_j429496729976_1_alg».proof.Proof.LibRowOps

noncomputable section

namespace Cert.KernelIdeal.RowValue

open Cert.KernelIdeal Cert.KernelIdeal.Gen Idealize.ShloMosaic Idealize.ShloMosaic.TcCoe Cert.LibRowOps

/-- The first hidden layer of the shared perceptron on a block: forty columns `xs` against the first forty columns of
    the weights, the gate's column `g` against the last one, the bias, the rectifier. -/
def segHid1 (xs : FVec Ideal S1024x40 .bf16) (g : FVec Ideal S1024x1 .bf16) (v13 : Vec Ideal S41 .f32)
    (v20 : FVec Ideal S41x40 .bf16) (v21 : FVec Ideal S41x1 .bf16) : FVec Ideal S1024x41 .f32 :=
  maximumf
    (addf
      (addf (matmul dot_S1024x40_S41x40_S1024x41_1_1_0_0_n_n none xs v20 (constant (F := Ideal) S1024x41 .f32 0x00000000#32))
        (matmul dot_S1024x1_S41x1_S1024x41_1_1_0_0_n_n none g v21 (constant (F := Ideal) S1024x41 .f32 0x00000000#32)))
      (broadcastTo S1024x41 (shapeCast S1x41 v13 shapeCasts_S41_S1x41) broadcasts_S1x41_S1024x41))
    (broadcast S1024x41 (Scalar.ofBits (F := Ideal) .f32 0x00000000#32))

/-- The second hidden layer. -/
def segHid2 (h1 : FVec Ideal S1024x41 .f32) (v15 : FVec Ideal S41x41 .bf16) (v16 : Vec Ideal S41 .f32) :
    FVec Ideal S1024x41 .f32 :=
  maximumf
    (addf
      (matmul dot_S1024x41_S41x41_S1024x41_1_1_0_0_n_n none (truncf .bf16 h1 bitsLt_bf16_f32) v15
        (constant (F := Ideal) S1024x41 .f32 0x00000000#32))
      (broadcastTo S1024x41 (shapeCast S1x41 v16 shapeCasts_S41_S1x41) broadcasts_S1x41_S1024x41))
    (broadcast S1024x41 (Scalar.ofBits (F := Ideal) .f32 0x00000000#32))

/-- The 22 logits. -/
def segLogits (h2 : FVec Ideal S1024x41 .f32) (v18 : FVec Ideal S22x41 .bf16) (v19 : Vec Ideal S22 .f32) :
    FVec Ideal S1024x22 .f32 :=
  addf
    (matmul dot_S1024x41_S22x41_S1024x22_1_1_0_0_n_n none (truncf .bf16 h2 bitsLt_bf16_f32) v18
      (constant (F := Ideal) S1024x22 .f32 0x00000000#32))
    (broadcastTo S1024x22 (shapeCast S1x22 v19 shapeCasts_S22_S1x22) broadcasts_S1x22_S1024x22)

/-- What the body stores for the segment whose forty columns start at `o1` and whose gate is column `o2`. -/
def segOut (o1 o2 : ℕ) (hs1 : S1024x440.Slices ![0, o1] S1024x40) (hs2 : S1024x10.Slices ![0, o2] S1024x1)
    (v1 : FVec Ideal S1024x440 .bf16) (v13 : Vec Ideal S41 .f32) (v15 : FVec Ideal S41x41 .bf16) (v16 : Vec Ideal S41 .f32)
    (v18 : FVec Ideal S22x41 .bf16) (v19 : Vec Ideal S22 .f32) (v20 : FVec Ideal S41x40 .bf16) (v21 : FVec Ideal S41x1 .bf16)
    (v51 : FVec Ideal S1024x10 .f32) (v52 : FVec Ideal S1024x10 .bf16) : FVec Ideal S1024x1x22 .f32 :=
  shapeCast S1024x1x22
    (mulf
      (softmaxV 1024 22 reduces_S1024x22_S1024 shapeCasts_S1024_S1024x1 broadcasts_S1024x1_S1024x22
        (segLogits
          (segHid2
            (segHid1 (extractStridedSlice S1024x40 ![0, o1] v1 hs1) (extractStridedSlice S1024x1 ![0, o2] v52 hs2) v13 v20 v21)
            v15 v16)
          v18 v19))
      (broadcastTo S1024x22 (extractStridedSlice S1024x1 ![0, o2] v51 hs2) broadcasts_S1024x1_S1024x22))
    shapeCasts_S1024x22_S1024x1x22

section Instances
variable (v1 : FVec Ideal S1024x440 .bf16) (v13 : Vec Ideal S41 .f32) (v15 : FVec Ideal S41x41 .bf16) (v16 : Vec Ideal S41 .f32)
  (v18 : FVec Ideal S22x41 .bf16) (v19 : Vec Ideal S22 .f32) (v20 : FVec Ideal S41x40 .bf16) (v21 : FVec Ideal S41x1 .bf16)
  (v51 : FVec Ideal S1024x10 .f32) (v52 : FVec Ideal S1024x10 .bf16)

theorem seg1_eq :
    k0_pay17 (k0_pay16 v1 v13 v15 v16 v18 v19 v20 v21 v51 v52)
      = segOut 80 1 slices_S1024x440_o0_80_S1024x40 slices_S1024x10_o0_1_S1024x1 v1 v13 v15 v16 v18 v19 v20 v21 v51 v52 := rfl

theorem seg2_eq :
    k0_pay18 v1 v13 v15 v16 v18 v19 v20 v21 v51 v52
      = segOut 120 2 slices_S1024x440_o0_120_S1024x40 slices_S1024x10_o0_2_S1024x1 v1 v13 v15 v16 v18 v19 v20 v21 v51 v52 := rfl

theorem seg3_eq :
    k0_pay21 v13 v15 v16 v18 v19 v20 v21 v51 (k0_pay19 v1) (k0_pay20 v52)
      = segOut 160 3 slices_S1024x440_o0_160_S1024x40 slices_S1024x10_o0_3_S1024x1 v1 v13 v15 v16 v18 v19 v20 v21 v51 v52 := rfl

theorem seg4_eq :
    k0_pay25 v15 v16 v18 v19 (k0_pay22 v51) (k0_pay23 v1 v20 v21 v52) (k0_pay24 v13)
      = segOut 200 4 slices_S1024x440_o0_200_S1024x40 slices_S1024x10_o0_4_S1024x1 v1 v13 v15 v16 v18 v19 v20 v21 v51 v52 := rfl

theorem seg5_eq :
    k0_pay29 v18 v19 (k0_pay26 v51) (k0_pay27 v1 v13 v15 v20 v21 v52) (k0_pay28 v16)
      = segOut 240 5 slices_S1024x440_o0_240_S1024x40 slices_S1024x10_o0_5_S1024x1 v1 v13 v15 v16 v18 v19 v20 v21 v51 v52 := rfl

theorem seg6_eq :
    k0_pay32 v19 (k0_pay30 v51) (k0_pay31 v1 v13 v15 v16 v18 v20 v21 v52)
      = segOut 280 6 slices_S1024x440_o0_280_S1024x40 slices_S1024x10_o0_6_S1024x1 v1 v13 v15 v16 v18 v19 v20 v21 v51 v52 := rfl

theorem seg7_eq :
    k0_pay36 (k0_pay33 v51) (k0_pay34 v1 v13 v15 v16 v18 v19 v20 v21 v52) (k0_pay35 v1 v13 v15 v16 v18 v19 v20 v21 v52)
      = segOut 320 7 slices_S1024x440_o0_320_S1024x40 slices_S1024x10_o0_7_S1024x1 v1 v13 v15 v16 v18 v19 v20 v21 v51 v52 := rfl

theorem seg8_eq :
    k0_pay40 (k0_pay37 v51) (k0_pay38 v1 v13 v15 v16 v18 v19 v20 v21 v52) (k0_pay39 v1 v13 v15 v16 v18 v19 v20 v21 v52)
      = segOut 360 8 slices_S1024x440_o0_360_S1024x40 slices_S1024x10_o0_8_S1024x1 v1 v13 v15 v16 v18 v19 v20 v21 v51 v52 := rfl

theorem seg9_eq :
    k0_pay1 (k0_pay41 v1 v13 v15 v16 v18 v19 v20 v21 v51 v52)
      = segOut 400 9 slices_S1024x440_o0_400_S1024x40 slices_S1024x10_o0_9_S1024x1 v1 v13 v15 v16 v18 v19 v20 v21 v51 v52 := rfl

theorem seg0_eq (v9 : FVec Ideal S10x40 .bf16) (v10 : Vec Ideal S10 .f32) (v33 v34 : FVec Ideal S1024x40 .f32) :
    k0_pay15 (k0_pay13 v9 v10 v33 v34) (k0_pay14 v1 v9 v10 v13 v15 v16 v18 v19 v20 v21 v33 v34)
      = segOut 40 0 slices_S1024x440_o0_40_S1024x40 slices_S1024x10_o0_0_S1024x1 v1 v13 v15 v16 v18 v19 v20 v21
          (k0_pay11 v9 v10 v33 v34) (k0_pay12 v9 v10 v33 v34) := rfl

end Instances

/-! ## The first perceptron, whose softmax gives the ten gates -/

/-- Its first hidden layer on the block: the first forty columns against the first weight matrix. -/
def headHid1 (v0 : Vec Ideal S1024x440 .f32) (v2 : Vec Ideal S40x40 .f32) (v4 : Vec Ideal S40 .f32) : FVec Ideal S1024x40 .f32 :=
  maximumf
    (addf
      (matmul dot_S1024x40_S40x40_S1024x40_1_1_0_0_n_n none
        (extractStridedSlice S1024x40 ![0, 0] (k0_pay2 v0) slices_S1024x440_o0_0_S1024x40) (truncf .bf16 v2 bitsLt_bf16_f32)
        (constant (F := Ideal) S1024x40 .f32 0x00000000#32))
      (broadcastTo S1024x40 (shapeCast S1x40 v4 shapeCasts_S40_S1x40) broadcasts_S1x40_S1024x40))
    (broadcast S1024x40 (Scalar.ofBits (F := Ideal) .f32 0x00000000#32))

/-- Its second layer before the rectifier. -/
def headPre2 (h1 : FVec Ideal S1024x40 .f32) (v5 : Vec Ideal S40x40 .f32) (v7 : Vec Ideal S40 .f32) : FVec Ideal S1024x40 .f32 :=
  addf
    (matmul dot_S1024x40_S40x40_S1024x40_1_1_0_0_n_n none (truncf .bf16 h1 bitsLt_bf16_f32) (truncf .bf16 v5 bitsLt_bf16_f32)
      (constant (F := Ideal) S1024x40 .f32 0x00000000#32))
    (broadcastTo S1024x40 (shapeCast S1x40 v7 shapeCasts_S40_S1x40) broadcasts_S1x40_S1024x40)

/-- Its ten logits, from the second layer before the rectifier (`v33`) and the rectifier's zero (`v34`). -/
def headLogits (v9 : FVec Ideal S10x40 .bf16) (v10 : Vec Ideal S10 .f32) (v33 v34 : FVec Ideal S1024x40 .f32) :
    FVec Ideal S1024x10 .f32 :=
  addf
    (matmul dot_S1024x40_S10x40_S1024x10_1_1_0_0_n_n none (truncf .bf16 (maximumf v33 v34) bitsLt_bf16_f32) v9
      (constant (F := Ideal) S1024x10 .f32 0x00000000#32))
    (broadcastTo S1024x10 (shapeCast S1x10 v10 shapeCasts_S10_S1x10) broadcasts_S1x10_S1024x10)

theorem pay9_eq (v0 : Vec Ideal S1024x440 .f32) (v2 : Vec Ideal S40x40 .f32) (v4 : Vec Ideal S40 .f32) (v5 : Vec Ideal S40x40 .f32)
    (v7 : Vec Ideal S40 .f32) : k0_pay9 v0 v2 v4 v5 v7 = headPre2 (headHid1 v0 v2 v4) v5 v7 := rfl

theorem pay11_eq (v9 : FVec Ideal S10x40 .bf16) (v10 : Vec Ideal S10 .f32) (v33 v34 : FVec Ideal S1024x40 .f32) :
    k0_pay11 v9 v10 v33 v34
      = softmaxV 1024 10 reduces_S1024x10_S1024 shapeCasts_S1024_S1024x1 broadcasts_S1024x1_S1024x10 (headLogits v9 v10 v33 v34) := rfl

end Cert.KernelIdeal.RowValue

end
-- ==== Proof.SegValue.lean ====
/-
  One segment of the block, read at one index. With the block's row `r` given as a row `xr` of 440 entries and the
  parameter arrays given by row and column, `segOut` at row `r` and class `o` is the row's output at the segment:
  layer by layer, a dense layer at an index is the inner product of the rows plus the bias, the first layer's two
  products are the split 41-term inner product, and the normalisation is the softmax of the row of logits.
-/
import proofs.«148911_j429496729976_1_alg».proof.Proof.SegTerm
import proofs.«148911_j429496729976_1_alg».proof.Proof.RowSpec

noncomputable section

namespace Cert.KernelIdeal.RowValue

open Cert.KernelIdeal Cert.KernelIdeal.Gen Idealize.ShloMosaic Idealize.ShloMosaic.TcCoe Idealize.ShloMosaic.ValueIdx
  Cert.LibRowOps

/-! ## The six products of the body, at an index -/

theorem mm_40_40 {φ₁ φ₂ : FTy} (a : FVec Ideal S1024x40 φ₁) (w : FVec Ideal S40x40 φ₂) (r : Fin 1024) (j : Fin 40) :
    matmul dot_S1024x40_S40x40_S1024x40_1_1_0_0_n_n none a w (constant (F := Ideal) S1024x40 .f32 0x00000000#32) (ix2 r j)
      = ∑ k : Fin 40, a (ix2 r k) * w (ix2 j k) :=
  matmul_rowsDot_apply 1024 40 40 dot_S1024x40_S40x40_S1024x40_1_1_0_0_n_n_wf a w r j
theorem mm_40_10 {φ₁ φ₂ : FTy} (a : FVec Ideal S1024x40 φ₁) (w : FVec Ideal S10x40 φ₂) (r : Fin 1024) (j : Fin 10) :
    matmul dot_S1024x40_S10x40_S1024x10_1_1_0_0_n_n none a w (constant (F := Ideal) S1024x10 .f32 0x00000000#32) (ix2 r j)
      = ∑ k : Fin 40, a (ix2 r k) * w (ix2 j k) :=
  matmul_rowsDot_apply 1024 40 10 dot_S1024x40_S10x40_S1024x10_1_1_0_0_n_n_wf a w r j
theorem mm_40_41 {φ₁ φ₂ : FTy} (a : FVec Ideal S1024x40 φ₁) (w : FVec Ideal S41x40 φ₂) (r : Fin 1024) (j : Fin 41) :
    matmul dot_S1024x40_S41x40_S1024x41_1_1_0_0_n_n none a w (constant (F := Ideal) S1024x41 .f32 0x00000000#32) (ix2 r j)
      = ∑ k : Fin 40, a (ix2 r k) * w (ix2 j k) :=
  matmul_rowsDot_apply 1024 40 41 dot_S1024x40_S41x40_S1024x41_1_1_0_0_n_n_wf a w r j
theorem mm_1_41 {φ₁ φ₂ : FTy} (a : FVec Ideal S1024x1 φ₁) (w : FVec Ideal S41x1 φ₂) (r : Fin 1024) (j : Fin 41) :
    matmul dot_S1024x1_S41x1_S1024x41_1_1_0_0_n_n none a w (constant (F := Ideal) S1024x41 .f32 0x00000000#32) (ix2 r j)
      = ∑ k : Fin 1, a (ix2 r k) * w (ix2 j k) :=
  matmul_rowsDot_apply 1024 1 41 dot_S1024x1_S41x1_S1024x41_1_1_0_0_n_n_wf a w r j
theorem mm_41_41 {φ₁ φ₂ : FTy} (a : FVec Ideal S1024x41 φ₁) (w : FVec Ideal S41x41 φ₂) (r : Fin 1024) (j : Fin 41) :
    matmul dot_S1024x41_S41x41_S1024x41_1_1_0_0_n_n none a w (constant (F := Ideal) S1024x41 .f32 0x00000000#32) (ix2 r j)
      = ∑ k : Fin 41, a (ix2 r k) * w (ix2 j k) :=
  matmul_rowsDot_apply 1024 41 41 dot_S1024x41_S41x41_S1024x41_1_1_0_0_n_n_wf a w r j
theorem mm_41_22 {φ₁ φ₂ : FTy} (a : FVec Ideal S1024x41 φ₁) (w : FVec Ideal S22x41 φ₂) (r : Fin 1024) (j : Fin 22) :
    matmul dot_S1024x41_S22x41_S1024x22_1_1_0_0_n_n none a w (constant (F := Ideal) S1024x22 .f32 0x00000000#32) (ix2 r j)
      = ∑ k : Fin 41, a (ix2 r k) * w (ix2 j k) :=
  matmul_rowsDot_apply 1024 41 22 dot_S1024x41_S22x41_S1024x22_1_1_0_0_n_n_wf a w r j

/-- The rectifier's zero splat reads the extended real `0`. -/
theorem zeroSplat_apply (S : Shape) (i : S.Idx) : broadcast S (Scalar.ofBits (F := Ideal) .f32 0x00000000#32) i = 0 :=
  Ideal.ofBits_zero_f32

/-! ## The shared perceptron at row `r`, layer by layer -/

section Segment
variable (P : Cert.RowSpec.Params) (xr : Fin 440 → EReal) (s : Fin 10) (r : Fin 1024)

/-- The first hidden layer: the two products are the forty-term and the one-term part of the 41-term inner product. -/
theorem segHid1_apply (xs : FVec Ideal S1024x40 .bf16) (g : FVec Ideal S1024x1 .bf16) (v13 : Vec Ideal S41 .f32)
    (v20 : FVec Ideal S41x40 .bf16) (v21 : FVec Ideal S41x1 .bf16)
    (hxs : ∀ k : Fin 40, xs (ix2 r k) = Cert.RowSpec.segEntry xr s k)
    (hg : ∀ k : Fin 1, g (ix2 r k) = Cert.RowSpec.gate P xr s)
    (hv13 : ∀ j : Fin 41, v13 (ix1 j) = P.c1 j)
    (hv20 : ∀ (j : Fin 41) (k : Fin 40), v20 (ix2 j k) = P.V1 j (Fin.castSucc k))
    (hv21 : ∀ (j : Fin 41) (k : Fin 1), v21 (ix2 j k) = P.V1 j (Fin.last 40)) (j : Fin 41) :
    segHid1 xs g v13 v20 v21 (ix2 r j) = Cert.RowSpec.sh1 P xr s j := by
  unfold segHid1 Cert.RowSpec.sh1 Cert.RowSpec.relu
  rw [Cert.RowSpec.dense_smallIn, maximumf_apply, addf_apply, addf_apply, mm_40_41, mm_1_41, biasRow_apply 1024 41,
    zeroSplat_apply]
  simp only [hxs, hg, hv13, hv20, hv21]

/-- The second hidden layer. -/
theorem segHid2_apply (h1 : FVec Ideal S1024x41 .f32) (v15 : FVec Ideal S41x41 .bf16) (v16 : Vec Ideal S41 .f32)
    (hh1 : ∀ k : Fin 41, h1 (ix2 r k) = Cert.RowSpec.sh1 P xr s k)
    (hv15 : ∀ j k : Fin 41, v15 (ix2 j k) = P.V2 j k) (hv16 : ∀ j : Fin 41, v16 (ix1 j) = P.c2 j) (j : Fin 41) :
    segHid2 h1 v15 v16 (ix2 r j) = Cert.RowSpec.sh2 P xr s j := by
  unfold segHid2 Cert.RowSpec.sh2 Cert.RowSpec.relu Cert.RowSpec.dense
  rw [maximumf_apply, addf_apply, mm_41_41, biasRow_apply 1024 41, zeroSplat_apply]
  simp only [truncf_apply, hh1, hv15, hv16]

/-- The logits. -/
theorem segLogits_apply (h2 : FVec Ideal S1024x41 .f32) (v18 : FVec Ideal S22x41 .bf16) (v19 : Vec Ideal S22 .f32)
    (hh2 : ∀ k : Fin 41, h2 (ix2 r k) = Cert.RowSpec.sh2 P xr s k)
    (hv18 : ∀ (j : Fin 22) (k : Fin 41), v18 (ix2 j k) = P.V3 j k) (hv19 : ∀ j : Fin 22, v19 (ix1 j) = P.c3 j)
    (j : Fin 22) :
    segLogits h2 v18 v19 (ix2 r j) = Cert.RowSpec.logitS P xr s j := by
  unfold segLogits Cert.RowSpec.logitS Cert.RowSpec.dense
  rw [addf_apply, mm_41_22, biasRow_apply 1024 22]
  simp only [truncf_apply, hh2, hv18, hv19]

/-- The segment's stored value at row `r`, class `o`: the row's output at segment `s`. -/
theorem segOut_apply (o1 o2 : ℕ) (ho1 : o1 = 40 + 40 * s.val) (ho2 : o2 = s.val)
    (hs1 : S1024x440.Slices ![0, o1] S1024x40) (hs2 : S1024x10.Slices ![0, o2] S1024x1)
    (v1 : FVec Ideal S1024x440 .bf16) (v13 : Vec Ideal S41 .f32) (v15 : FVec Ideal S41x41 .bf16) (v16 : Vec Ideal S41 .f32)
    (v18 : FVec Ideal S22x41 .bf16) (v19 : Vec Ideal S22 .f32) (v20 : FVec Ideal S41x40 .bf16) (v21 : FVec Ideal S41x1 .bf16)
    (v51 : FVec Ideal S1024x10 .f32) (v52 : FVec Ideal S1024x10 .bf16)
    (hv1 : ∀ c : Fin 440, v1 (ix2 r c) = xr c)
    (hv13 : ∀ j : Fin 41, v13 (ix1 j) = P.c1 j)
    (hv15 : ∀ j k : Fin 41, v15 (ix2 j k) = P.V2 j k) (hv16 : ∀ j : Fin 41, v16 (ix1 j) = P.c2 j)
    (hv18 : ∀ (j : Fin 22) (k : Fin 41), v18 (ix2 j k) = P.V3 j k) (hv19 : ∀ j : Fin 22, v19 (ix1 j) = P.c3 j)
    (hv20 : ∀ (j : Fin 41) (k : Fin 40), v20 (ix2 j k) = P.V1 j (Fin.castSucc k))
    (hv21 : ∀ (j : Fin 41) (k : Fin 1), v21 (ix2 j k) = P.V1 j (Fin.last 40))
    (hv51 : ∀ t : Fin 10, v51 (ix2 r t) = Cert.RowSpec.gate P xr t)
    (hv52 : ∀ t : Fin 10, v52 (ix2 r t) = Cert.RowSpec.gate P xr t) (z : Fin 1) (o : Fin 22) :
    segOut o1 o2 hs1 hs2 v1 v13 v15 v16 v18 v19 v20 v21 v51 v52 (ix3 r z o) = Cert.RowSpec.rowOut P xr s o := by
  subst ho1 ho2
  have hs := s.isLt
  have hcol : ∀ k : Fin 1, (⟨s.val + k.val, by have := k.isLt; omega⟩ : Fin 10) = s := fun k =>
    Fin.ext (by have := k.isLt; show s.val + k.val = s.val; omega)
  have hxs : ∀ k : Fin 40, extractStridedSlice S1024x40 ![0, 40 + 40 * s.val] v1 hs1 (ix2 r k) = Cert.RowSpec.segEntry xr s k :=
    fun k => (sliceCols_apply 1024 440 40 (40 + 40 * s.val) (by omega) v1 hs1 r k).trans (hv1 _)
  have hg : ∀ k : Fin 1, extractStridedSlice S1024x1 ![0, s.val] v52 hs2 (ix2 r k) = Cert.RowSpec.gate P xr s :=
    fun k => (sliceCols_apply 1024 10 1 s.val (by omega) v52 hs2 r k).trans (by rw [hcol k]; exact hv52 s)
  have hlog : ∀ j : Fin 22,
      segLogits
        (segHid2
          (segHid1 (extractStridedSlice S1024x40 ![0, 40 + 40 * s.val] v1 hs1) (extractStridedSlice S1024x1 ![0, s.val] v52 hs2)
            v13 v20 v21)
          v15 v16)
        v18 v19 (ix2 r j) = Cert.RowSpec.logitS P xr s j :=
    fun j => segLogits_apply P xr s r _ v18 v19
      (fun k => segHid2_apply P xr s r _ v15 v16
        (fun k' => segHid1_apply P xr s r _ _ v13 v20 v21 hxs hg hv13 hv20 hv21 k') hv15 hv16 k) hv18 hv19 j
  unfold segOut
  rw [addUnitMid_apply 1024 22, mulf_apply, softmaxV_apply, colBlock_apply 1024 22,
    sliceCols_apply 1024 10 1 s.val (by omega) v51 hs2 r, hcol, hv51]
  simp only [hlog]
  rfl

end Segment

/-! ## The first perceptron at row `r`: the gates -/

section Head
variable (P : Cert.RowSpec.Params) (xr : Fin 440 → EReal) (r : Fin 1024)

theorem headHid1_apply (v0 : Vec Ideal S1024x440 .f32) (v2 : Vec Ideal S40x40 .f32) (v4 : Vec Ideal S40 .f32)
    (hv0 : ∀ c : Fin 440, v0 (ix2 r c) = xr c) (hv2 : ∀ j k : Fin 40, v2 (ix2 j k) = P.W1 j k)
    (hv4 : ∀ j : Fin 40, v4 (ix1 j) = P.b1 j) (j : Fin 40) :
    headHid1 v0 v2 v4 (ix2 r j) = Cert.RowSpec.hid1 P xr j := by
  have hx : ∀ k : Fin 40,
      extractStridedSlice S1024x40 ![0, 0] (k0_pay2 v0) slices_S1024x440_o0_0_S1024x40 (ix2 r k) = Cert.RowSpec.head xr k :=
    fun k => (sliceCols_apply 1024 440 40 0 (by omega) (k0_pay2 v0) slices_S1024x440_o0_0_S1024x40 r k).trans
      ((hv0 _).trans (congrArg xr (Fin.ext (Nat.zero_add k.val))))
  unfold headHid1 Cert.RowSpec.hid1 Cert.RowSpec.relu Cert.RowSpec.dense
  rw [maximumf_apply, addf_apply, mm_40_40, biasRow_apply 1024 40, zeroSplat_apply]
  simp only [truncf_apply, hx, hv2, hv4]

theorem headPre2_apply (h1 : FVec Ideal S1024x40 .f32) (v5 : Vec Ideal S40x40 .f32) (v7 : Vec Ideal S40 .f32)
    (hh1 : ∀ k : Fin 40, h1 (ix2 r k) = Cert.RowSpec.hid1 P xr k) (hv5 : ∀ j k : Fin 40, v5 (ix2 j k) = P.W2 j k)
    (hv7 : ∀ j : Fin 40, v7 (ix1 j) = P.b2 j) (j : Fin 40) :
    headPre2 h1 v5 v7 (ix2 r j) = Cert.RowSpec.dense (Cert.RowSpec.hid1 P xr) (P.W2 j) (P.b2 j) := by
  unfold headPre2 Cert.RowSpec.dense
  rw [addf_apply, mm_40_40, biasRow_apply 1024 40]
  simp only [truncf_apply, hh1, hv5, hv7]

theorem headLogits_apply (v9 : FVec Ideal S10x40 .bf16) (v10 : Vec Ideal S10 .f32) (v33 v34 : FVec Ideal S1024x40 .f32)
    (hv33 : ∀ k : Fin 40, v33 (ix2 r k) = Cert.RowSpec.dense (Cert.RowSpec.hid1 P xr) (P.W2 k) (P.b2 k))
    (hv34 : ∀ i, v34 i = 0) (hv9 : ∀ (j : Fin 10) (k : Fin 40), v9 (ix2 j k) = P.W3 j k)
    (hv10 : ∀ j : Fin 10, v10 (ix1 j) = P.b3 j) (j : Fin 10) :
    headLogits v9 v10 v33 v34 (ix2 r j) = Cert.RowSpec.logitA P xr j := by
  unfold headLogits
  rw [addf_apply, mm_40_10, biasRow_apply 1024 10]
  simp only [truncf_apply, maximumf_apply, hv33, hv34, hv9, hv10]
  rfl

/-- The first perceptron's normalised output at row `r`, column `t`: gate `t` of the row. -/
theorem gates_apply (v0 : Vec Ideal S1024x440 .f32) (v2 : Vec Ideal S40x40 .f32) (v4 : Vec Ideal S40 .f32)
    (v5 : Vec Ideal S40x40 .f32) (v7 : Vec Ideal S40 .f32) (v9 : FVec Ideal S10x40 .bf16) (v10 : Vec Ideal S10 .f32)
    (hv0 : ∀ c : Fin 440, v0 (ix2 r c) = xr c) (hv2 : ∀ j k : Fin 40, v2 (ix2 j k) = P.W1 j k)
    (hv4 : ∀ j : Fin 40, v4 (ix1 j) = P.b1 j) (hv5 : ∀ j k : Fin 40, v5 (ix2 j k) = P.W2 j k)
    (hv7 : ∀ j : Fin 40, v7 (ix1 j) = P.b2 j) (hv9 : ∀ (j : Fin 10) (k : Fin 40), v9 (ix2 j k) = P.W3 j k)
    (hv10 : ∀ j : Fin 10, v10 (ix1 j) = P.b3 j) (t : Fin 10) :
    k0_pay11 v9 v10 (k0_pay9 v0 v2 v4 v5 v7) (k0_pay10 (F := Ideal)) (ix2 r t) = Cert.RowSpec.gate P xr t := by
  have hlog : ∀ j : Fin 10,
      headLogits v9 v10 (headPre2 (headHid1 v0 v2 v4) v5 v7) (k0_pay10 (F := Ideal)) (ix2 r j) = Cert.RowSpec.logitA P xr j :=
    fun j => headLogits_apply P xr r v9 v10 _ _
      (fun k => headPre2_apply P xr r _ v5 v7 (fun k' => headHid1_apply P xr r v0 v2 v4 hv0 hv2 hv4 k') hv5 hv7 k)
      (fun i => zeroSplat_apply S1024x40 i) hv9 hv10 j
  rw [pay11_eq, pay9_eq, softmaxV_apply]
  simp only [hlog]
  rfl

end Head

end Cert.KernelIdeal.RowValue

end
-- ==== Proof.KernelRow.lean ====
/-
  What the kernel body leaves in its output block. The block [1024, 10, 22] is written by ten stores, one per segment,
  each through the rectangle of rows × one segment × classes; the value stored for segment `s` is `segOut` at the column
  offsets `40 + 40 s` and `s`, over the loaded arrays. Read at (r, s, o), every store agrees with one function of the
  index — the output of row `r` of the input block at segment `s`, class `o` — and the ten rectangles cover the block.
-/
import proofs.«148911_j429496729976_1_alg».proof.Proof.Gen.KernelIdeal.Frame
import proofs.«148911_j429496729976_1_alg».proof.Proof.RowSpec
import proofs.«148911_j429496729976_1_alg».proof.Proof.SegValue
import Idealize.ShloMosaic.Lib.Pipeline.Value
import Idealize.ShloMosaic.Lib.ValueIdx
import Idealize.ShloMosaic.PureOps.Ideal.Laws

noncomputable section

namespace Cert.KernelIdeal.RowValue

open Cert.KernelIdeal Cert.KernelIdeal.Gen Idealize.ShloMosaic Idealize.ShloMosaic.TcCoe Idealize.ShloMosaic.ValueIdx
  Cert.LibRowOps

/-- The index of the block under local index (r, z, o) of the rectangle of segment `sv`: (r, sv, o). -/
theorem emb_seg (sv : ℕ) (hsv : sv < 10) (inb : ∀ a, (![0, sv, 0] : Fin 3 → ℕ) a + S1024x1x22.size a ≤ S1024x10x22.size a)
    (r : Fin 1024) (z : Fin 1) (o : Fin 22) :
    (Rect.unit (s := S1024x10x22) ![0, sv, 0] S1024x1x22.size inb).emb (ix3 r z o) = ix3 r (⟨sv, hsv⟩ : Fin 10) o := by
  funext a
  refine Fin.ext ?_
  match a with
  | ⟨0, _⟩ => show 0 + 1 * r.val = r.val; omega
  | ⟨1, _⟩ => show sv + 1 * z.val = sv; have := z.isLt; omega
  | ⟨2, _⟩ => show 0 + 1 * o.val = o.val; omega

section Piece
variable (x0 : Vec Ideal S1024x440 .f32) (x1 : Vec Ideal S40x40 .f32) (x2 : Vec Ideal S40 .f32) (x3 : Vec Ideal S40x40 .f32)
  (x4 : Vec Ideal S40 .f32) (x5 : Vec Ideal S10x40 .f32) (x6 : Vec Ideal S10 .f32) (x7 : Vec Ideal S41x41 .f32)
  (x8 : Vec Ideal S41 .f32) (x9 : Vec Ideal S41x41 .f32) (x10 : Vec Ideal S41 .f32) (x11 : Vec Ideal S22x41 .f32)
  (x12 : Vec Ideal S22 .f32)

/-- The value stored for segment `s`, over the loaded arrays, at row `r` and class `o`. -/
theorem piece_apply (s : Fin 10) (o1 o2 : ℕ) (ho1 : o1 = 40 + 40 * s.val) (ho2 : o2 = s.val)
    (hs1 : S1024x440.Slices ![0, o1] S1024x40) (hs2 : S1024x10.Slices ![0, o2] S1024x1) (r : Fin 1024) (z : Fin 1) (o : Fin 22) :
    segOut o1 o2 hs1 hs2 (k0_pay2 x0) x8 (k0_pay5 x9) x10 (k0_pay6 x11) x12 (k0_pay7 x7) (k0_pay8 x7)
        (k0_pay11 (k0_pay3 x5) x6 (k0_pay9 x0 x1 x2 x3 x4) (k0_pay10 (F := Ideal)))
        (k0_pay12 (k0_pay3 x5) x6 (k0_pay9 x0 x1 x2 x3 x4) (k0_pay10 (F := Ideal))) (ix3 r z o)
      = Cert.RowSpec.rowOut (Cert.RowSpec.paramsOf x1 x2 x3 x4 x5 x6 x7 x8 x9 x10 x11 x12) (Cert.RowSpec.rowOf x0 r) s o := by
  have hgate : ∀ t : Fin 10,
      k0_pay11 (k0_pay3 x5) x6 (k0_pay9 x0 x1 x2 x3 x4) (k0_pay10 (F := Ideal)) (ix2 r t)
        = Cert.RowSpec.gate (Cert.RowSpec.paramsOf x1 x2 x3 x4 x5 x6 x7 x8 x9 x10 x11 x12) (Cert.RowSpec.rowOf x0 r) t :=
    fun t => gates_apply (Cert.RowSpec.paramsOf x1 x2 x3 x4 x5 x6 x7 x8 x9 x10 x11 x12) (Cert.RowSpec.rowOf x0 r) r
      x0 x1 x2 x3 x4 (k0_pay3 x5) x6 (fun _ => rfl) (fun _ _ => rfl) (fun _ => rfl) (fun _ _ => rfl) (fun _ => rfl)
      (fun _ _ => rfl) (fun _ => rfl) t
  refine segOut_apply (Cert.RowSpec.paramsOf x1 x2 x3 x4 x5 x6 x7 x8 x9 x10 x11 x12) (Cert.RowSpec.rowOf x0 r) s r o1 o2 ho1 ho2
    hs1 hs2 _ _ _ _ _ _ _ _ _ _ (fun _ => rfl) (fun _ => rfl) (fun _ _ => rfl) (fun _ => rfl) (fun _ _ => rfl) (fun _ => rfl)
    (fun j k => ?_) (fun j k => ?_) hgate (fun t => hgate t) z o
  · exact (sliceCols_apply 41 41 40 0 (by omega) (k0_pay4 x7) slices_S41x41_o0_0_S41x40 j k).trans
      (congrArg (fun c : Fin 41 => x7 (ix2 j c)) (Fin.ext (Nat.zero_add k.val)))
  · exact (sliceCols_apply 41 41 1 40 (by omega) (k0_pay4 x7) slices_S41x41_o0_40_S41x1 j k).trans
      (congrArg (fun c : Fin 41 => x7 (ix2 j c)) (Fin.ext (by have := k.isLt; show 40 + k.val = 40; omega)))

/-- The store of segment `sv` agrees, at every local index of its rectangle, with the row's output at the index of the
    block under it. -/
theorem piece_ok (sv : ℕ) (hsv : sv < 10)
    (inb : ∀ a, (![0, sv, 0] : Fin 3 → ℕ) a + S1024x1x22.size a ≤ S1024x10x22.size a) (o1 o2 : ℕ)
    (ho1 : o1 = 40 + 40 * sv) (ho2 : o2 = sv) (hs1 : S1024x440.Slices ![0, o1] S1024x40) (hs2 : S1024x10.Slices ![0, o2] S1024x1)
    (x : (⟨3, ![1024, 1, 22]⟩ : Shape).Idx) :
    segOut o1 o2 hs1 hs2 (k0_pay2 x0) x8 (k0_pay5 x9) x10 (k0_pay6 x11) x12 (k0_pay7 x7) (k0_pay8 x7)
        (k0_pay11 (k0_pay3 x5) x6 (k0_pay9 x0 x1 x2 x3 x4) (k0_pay10 (F := Ideal)))
        (k0_pay12 (k0_pay3 x5) x6 (k0_pay9 x0 x1 x2 x3 x4) (k0_pay10 (F := Ideal))) x
      = (fun i : S1024x10x22.Idx =>
          Cert.RowSpec.rowOut (Cert.RowSpec.paramsOf x1 x2 x3 x4 x5 x6 x7 x8 x9 x10 x11 x12) (Cert.RowSpec.rowOf x0 (i 0)) (i 1) (i 2))
        ((Rect.unit (s := S1024x10x22) ![0, sv, 0] S1024x1x22.size inb).emb x) := by
  obtain ⟨r, z, o, rfl⟩ : ∃ (r : Fin 1024) (z : Fin 1) (o : Fin 22), x = ix3 r z o := ⟨x 0, x 1, x 2, eq_ix3 x⟩
  rw [emb_seg sv hsv inb r z o]
  exact piece_apply x0 x1 x2 x3 x4 x5 x6 x7 x8 x9 x10 x11 x12 ⟨sv, hsv⟩ o1 o2 ho1 ho2 hs1 hs2 r z o

end Piece

theorem block_eq (x0 : Vec Ideal S1024x440 .f32) (x1 : Vec Ideal S40x40 .f32) (x2 : Vec Ideal S40 .f32) (x3 : Vec Ideal S40x40 .f32) (x4 : Vec Ideal S40 .f32) (x5 : Vec Ideal S10x40 .f32) (x6 : Vec Ideal S10 .f32) (x7 : Vec Ideal S41x41 .f32) (x8 : Vec Ideal S41 .f32) (x9 : Vec Ideal S41x41 .f32) (x10 : Vec Ideal S41 .f32) (x11 : Vec Ideal S22x41 .f32) (x12 : Vec Ideal S22 .f32) (y : S1024x10x22.Idx) :
    out0_13 (F := Ideal) x0 x1 x2 x3 x4 x5 x6 x7 x8 x9 x10 x11 x12 y
      = Cert.RowSpec.rowOut (Cert.RowSpec.paramsOf x1 x2 x3 x4 x5 x6 x7 x8 x9 x10 x11 x12) (Cert.RowSpec.rowOf x0 (y 0)) (y 1) (y 2) := by
  have hz2 : (![0, 0] : Fin 2 → ℕ) = fun _ => 0 := funext fun a => by
    match a with
    | ⟨0, _⟩ => rfl
    | ⟨1, _⟩ => rfl
  have hz1 : (![0] : Fin 1 → ℕ) = fun _ => 0 := funext fun a => by
    match a with
    | ⟨0, _⟩ => rfl
  unfold out0_13
  simp only [View.ld_unit_zero (S := S1024x440) hz2, View.ld_unit_zero (S := S40x40) hz2, View.ld_unit_zero (S := S40) hz1,
    View.ld_unit_zero (S := S10x40) hz2, View.ld_unit_zero (S := S10) hz1, View.ld_unit_zero (S := S41x41) hz2,
    View.ld_unit_zero (S := S41) hz1, View.ld_unit_zero (S := S22x41) hz2, View.ld_unit_zero (S := S22) hz1]
  rw [seg9_eq, seg8_eq, seg7_eq, seg6_eq, seg5_eq, seg4_eq, seg3_eq, seg2_eq, seg1_eq, seg0_eq]
  refine View.canon_apply_of_pieces (Val := Elt Ideal) (S := S1024x10x22) (e := .f32)
    (fun i : S1024x10x22.Idx =>
      Cert.RowSpec.rowOut (Cert.RowSpec.paramsOf x1 x2 x3 x4 x5 x6 x7 x8 x9 x10 x11 x12) (Cert.RowSpec.rowOf x0 (i 0)) (i 1) (i 2))
    _ ?_ y (cover0_13 _ _ _ _ _ _ _ _ _ _ y)
  intro p hp x
  simp only [List.mem_cons, List.mem_singleton, List.not_mem_nil, or_false] at hp
  rcases hp with rfl | rfl | rfl | rfl | rfl | rfl | rfl | rfl | rfl | rfl
  · exact piece_ok x0 x1 x2 x3 x4 x5 x6 x7 x8 x9 x10 x11 x12 9 (by omega) inb_S1024x10x22_S1024x1x22_0_9_0 400 9 rfl rfl
      slices_S1024x440_o0_400_S1024x40 slices_S1024x10_o0_9_S1024x1 x
  · exact piece_ok x0 x1 x2 x3 x4 x5 x6 x7 x8 x9 x10 x11 x12 8 (by omega) inb_S1024x10x22_S1024x1x22_0_8_0 360 8 rfl rfl
      slices_S1024x440_o0_360_S1024x40 slices_S1024x10_o0_8_S1024x1 x
  · exact piece_ok x0 x1 x2 x3 x4 x5 x6 x7 x8 x9 x10 x11 x12 7 (by omega) inb_S1024x10x22_S1024x1x22_0_7_0 320 7 rfl rfl
      slices_S1024x440_o0_320_S1024x40 slices_S1024x10_o0_7_S1024x1 x
  · exact piece_ok x0 x1 x2 x3 x4 x5 x6 x7 x8 x9 x10 x11 x12 6 (by omega) inb_S1024x10x22_S1024x1x22_0_6_0 280 6 rfl rfl
      slices_S1024x440_o0_280_S1024x40 slices_S1024x10_o0_6_S1024x1 x
  · exact piece_ok x0 x1 x2 x3 x4 x5 x6 x7 x8 x9 x10 x11 x12 5 (by omega) inb_S1024x10x22_S1024x1x22_0_5_0 240 5 rfl rfl
      slices_S1024x440_o0_240_S1024x40 slices_S1024x10_o0_5_S1024x1 x
  · exact piece_ok x0 x1 x2 x3 x4 x5 x6 x7 x8 x9 x10 x11 x12 4 (by omega) inb_S1024x10x22_S1024x1x22_0_4_0 200 4 rfl rfl
      slices_S1024x440_o0_200_S1024x40 slices_S1024x10_o0_4_S1024x1 x
  · exact piece_ok x0 x1 x2 x3 x4 x5 x6 x7 x8 x9 x10 x11 x12 3 (by omega) inb_S1024x10x22_S1024x1x22_0_3_0 160 3 rfl rfl
      slices_S1024x440_o0_160_S1024x40 slices_S1024x10_o0_3_S1024x1 x
  · exact piece_ok x0 x1 x2 x3 x4 x5 x6 x7 x8 x9 x10 x11 x12 2 (by omega) inb_S1024x10x22_S1024x1x22_0_2_0 120 2 rfl rfl
      slices_S1024x440_o0_120_S1024x40 slices_S1024x10_o0_2_S1024x1 x
  · exact piece_ok x0 x1 x2 x3 x4 x5 x6 x7 x8 x9 x10 x11 x12 1 (by omega) inb_S1024x10x22_S1024x1x22_0_1_0 80 1 rfl rfl
      slices_S1024x440_o0_80_S1024x40 slices_S1024x10_o0_1_S1024x1 x
  · exact piece_ok x0 x1 x2 x3 x4 x5 x6 x7 x8 x9 x10 x11 x12 0 (by omega) inb_S1024x10x22_S1024x1x22_0_0_0 40 0 rfl rfl
      slices_S1024x440_o0_40_S1024x40 slices_S1024x10_o0_0_S1024x1 x

end Cert.KernelIdeal.RowValue

end
-- ==== Proof.KernelArray.lean ====
/-
  From the kernel's blocks to its output array.

  The grid has 256 points; point `t` reads rows `1024 t … 1024 t + 1023` of the input and all of every parameter array, and
  writes rows `1024 t … 1024 t + 1023` (all ten segments, all 22 classes) of the output.  The body's block at local row `r`
  depends only on local row `r` of the input block, which is row `1024 t + r` of the input; so each point writes its block of
  ONE function of the argument arrays — `rowOut` of the index's own row — and the 256 blocks cover every row.
-/
import proofs.«148911_j429496729976_1_alg».proof.Proof.Gen.KernelIdeal.Value
import proofs.«148911_j429496729976_1_alg».proof.Proof.RowSpec
import Idealize.ShloMosaic.Lib.Pipeline.Value
import Idealize.ShloMosaic.Lib.ValueIdx

set_option maxRecDepth 16384

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The output array as one function of the argument arrays: at (b, s, o), `rowOut` of row `b` of the input. -/
def G (a0 : S262144x440.Idx → EReal) (a1 : S40x40.Idx → EReal) (a2 : S40.Idx → EReal) (a3 : S40x40.Idx → EReal) (a4 : S40.Idx → EReal)
    (a5 : S10x40.Idx → EReal) (a6 : S10.Idx → EReal) (a7 : S41x41.Idx → EReal) (a8 : S41.Idx → EReal) (a9 : S41x41.Idx → EReal)
    (a10 : S41.Idx → EReal) (a11 : S22x41.Idx → EReal) (a12 : S22.Idx → EReal) : S262144x10x22.Idx → EReal :=
  fun i => Cert.RowSpec.rowOut (Cert.RowSpec.paramsOf a1 a2 a3 a4 a5 a6 a7 a8 a9 a10 a11 a12) (Cert.RowSpec.rowOf a0 (i 0)) (i 1) (i 2)

/-! ## The index maps, decided over the 256 points -/

/-- The input's block index follows the output's on the row axis and is zero on the column axis; the output's is zero on
    its segment and class axes. -/
theorem row_idx : ∀ t : Fin cfg0.N, win0_0.index t (0 : Fin 2) = win0_13.index t (0 : Fin 3) ∧ win0_0.index t (1 : Fin 2) = 0
    ∧ win0_13.index t (1 : Fin 3) = 0 ∧ win0_13.index t (2 : Fin 3) = 0 :=
  (by decide +kernel : ∀ t : Fin grid0.N, _)

/-- The output's block index on the row axis is the point's number. -/
theorem out_idx0 : ∀ t : Fin cfg0.N, win0_13.index t (0 : Fin 3) = t.val :=
  (by decide +kernel : ∀ t : Fin grid0.N, _)

/-- Every parameter window's block index is zero on every axis. -/
theorem zero_idx1 : ∀ t : Fin cfg0.N, win0_1.index t (0 : Fin 2) = 0 ∧ win0_1.index t (1 : Fin 2) = 0 :=
  (by decide +kernel : ∀ t : Fin grid0.N, _)
theorem zero_idx2 : ∀ t : Fin cfg0.N, win0_2.index t (0 : Fin 1) = 0 :=
  (by decide +kernel : ∀ t : Fin grid0.N, _)
theorem zero_idx3 : ∀ t : Fin cfg0.N, win0_3.index t (0 : Fin 2) = 0 ∧ win0_3.index t (1 : Fin 2) = 0 :=
  (by decide +kernel : ∀ t : Fin grid0.N, _)
theorem zero_idx4 : ∀ t : Fin cfg0.N, win0_4.index t (0 : Fin 1) = 0 :=
  (by decide +kernel : ∀ t : Fin grid0.N, _)
theorem zero_idx5 : ∀ t : Fin cfg0.N, win0_5.index t (0 : Fin 2) = 0 ∧ win0_5.index t (1 : Fin 2) = 0 :=
  (by decide +kernel : ∀ t : Fin grid0.N, _)
theorem zero_idx6 : ∀ t : Fin cfg0.N, win0_6.index t (0 : Fin 1) = 0 :=
  (by decide +kernel : ∀ t : Fin grid0.N, _)
theorem zero_idx7 : ∀ t : Fin cfg0.N, win0_7.index t (0 : Fin 2) = 0 ∧ win0_7.index t (1 : Fin 2) = 0 :=
  (by decide +kernel : ∀ t : Fin grid0.N, _)
theorem zero_idx8 : ∀ t : Fin cfg0.N, win0_8.index t (0 : Fin 1) = 0 :=
  (by decide +kernel : ∀ t : Fin grid0.N, _)
theorem zero_idx9 : ∀ t : Fin cfg0.N, win0_9.index t (0 : Fin 2) = 0 ∧ win0_9.index t (1 : Fin 2) = 0 :=
  (by decide +kernel : ∀ t : Fin grid0.N, _)
theorem zero_idx10 : ∀ t : Fin cfg0.N, win0_10.index t (0 : Fin 1) = 0 :=
  (by decide +kernel : ∀ t : Fin grid0.N, _)
theorem zero_idx11 : ∀ t : Fin cfg0.N, win0_11.index t (0 : Fin 2) = 0 ∧ win0_11.index t (1 : Fin 2) = 0 :=
  (by decide +kernel : ∀ t : Fin grid0.N, _)
theorem zero_idx12 : ∀ t : Fin cfg0.N, win0_12.index t (0 : Fin 1) = 0 :=
  (by decide +kernel : ∀ t : Fin grid0.N, _)

/-! ## The blocks the body reads -/

/-- Window 1's block is its whole array at every point. -/
theorem blk1_eq (c : Dev nD) (t : Fin cfg0.N) : (iblk m c 1 t : S40x40.Idx → EReal) = V m c main_arg1 := by
  funext x
  show V m c main_arg1 (((cfg0.win 1).blk t).view.emb x) = V m c main_arg1 x
  refine congrArg (V m c main_arg1) (funext fun a => Fin.ext ?_)
  exact match a with
    | ⟨0, _⟩ => by
      show win0_1.index t (0 : Fin 2) * 40 + 1 * (x 0).val = (x 0).val
      rw [(zero_idx1 t).1]; omega
    | ⟨1, _⟩ => by
      show win0_1.index t (1 : Fin 2) * 40 + 1 * (x 1).val = (x 1).val
      rw [(zero_idx1 t).2]; omega

/-- Window 2's block is its whole array at every point. -/
theorem blk2_eq (c : Dev nD) (t : Fin cfg0.N) : (iblk m c 2 t : S40.Idx → EReal) = V m c main_arg2 := by
  funext x
  show V m c main_arg2 (((cfg0.win 2).blk t).view.emb x) = V m c main_arg2 x
  refine congrArg (V m c main_arg2) (funext fun a => Fin.ext ?_)
  exact match a with
    | ⟨0, _⟩ => by
      show win0_2.index t (0 : Fin 1) * 40 + 1 * (x 0).val = (x 0).val
      rw [(zero_idx2 t)]; omega

/-- Window 3's block is its whole array at every point. -/
theorem blk3_eq (c : Dev nD) (t : Fin cfg0.N) : (iblk m c 3 t : S40x40.Idx → EReal) = V m c main_arg3 := by
  funext x
  show V m c main_arg3 (((cfg0.win 3).blk t).view.emb x) = V m c main_arg3 x
  refine congrArg (V m c main_arg3) (funext fun a => Fin.ext ?_)
  exact match a with
    | ⟨0, _⟩ => by
      show win0_3.index t (0 : Fin 2) * 40 + 1 * (x 0).val = (x 0).val
      rw [(zero_idx3 t).1]; omega
    | ⟨1, _⟩ => by
      show win0_3.index t (1 : Fin 2) * 40 + 1 * (x 1).val = (x 1).val
      rw [(zero_idx3 t).2]; omega

/-- Window 4's block is its whole array at every point. -/
theorem blk4_eq (c : Dev nD) (t : Fin cfg0.N) : (iblk m c 4 t : S40.Idx → EReal) = V m c main_arg4 := by
  funext x
  show V m c main_arg4 (((cfg0.win 4).blk t).view.emb x) = V m c main_arg4 x
  refine congrArg (V m c main_arg4) (funext fun a => Fin.ext ?_)
  exact match a with
    | ⟨0, _⟩ => by
      show win0_4.index t (0 : Fin 1) * 40 + 1 * (x 0).val = (x 0).val
      rw [(zero_idx4 t)]; omega

/-- Window 5's block is its whole array at every point. -/
theorem blk5_eq (c : Dev nD) (t : Fin cfg0.N) : (iblk m c 5 t : S10x40.Idx → EReal) = V m c main_arg5 := by
  funext x
  show V m c main_arg5 (((cfg0.win 5).blk t).view.emb x) = V m c main_arg5 x
  refine congrArg (V m c main_arg5) (funext fun a => Fin.ext ?_)
  exact match a with
    | ⟨0, _⟩ => by
      show win0_5.index t (0 : Fin 2) * 10 + 1 * (x 0).val = (x 0).val
      rw [(zero_idx5 t).1]; omega
    | ⟨1, _⟩ => by
      show win0_5.index t (1 : Fin 2) * 40 + 1 * (x 1).val = (x 1).val
      rw [(zero_idx5 t).2]; omega

/-- Window 6's block is its whole array at every point. -/
theorem blk6_eq (c : Dev nD) (t : Fin cfg0.N) : (iblk m c 6 t : S10.Idx → EReal) = V m c main_arg6 := by
  funext x
  show V m c main_arg6 (((cfg0.win 6).blk t).view.emb x) = V m c main_arg6 x
  refine congrArg (V m c main_arg6) (funext fun a => Fin.ext ?_)
  exact match a with
    | ⟨0, _⟩ => by
      show win0_6.index t (0 : Fin 1) * 10 + 1 * (x 0).val = (x 0).val
      rw [(zero_idx6 t)]; omega

/-- Window 7's block is its whole array at every point. -/
theorem blk7_eq (c : Dev nD) (t : Fin cfg0.N) : (iblk m c 7 t : S41x41.Idx → EReal) = V m c main_arg7 := by
  funext x
  show V m c main_arg7 (((cfg0.win 7).blk t).view.emb x) = V m c main_arg7 x
  refine congrArg (V m c main_arg7) (funext fun a => Fin.ext ?_)
  exact match a with
    | ⟨0, _⟩ => by
      show win0_7.index t (0 : Fin 2) * 41 + 1 * (x 0).val = (x 0).val
      rw [(zero_idx7 t).1]; omega
    | ⟨1, _⟩ => by
      show win0_7.index t (1 : Fin 2) * 41 + 1 * (x 1).val = (x 1).val
      rw [(zero_idx7 t).2]; omega

/-- Window 8's block is its whole array at every point. -/
theorem blk8_eq (c : Dev nD) (t : Fin cfg0.N) : (iblk m c 8 t : S41.Idx → EReal) = V m c main_arg8 := by
  funext x
  show V m c main_arg8 (((cfg0.win 8).blk t).view.emb x) = V m c main_arg8 x
  refine congrArg (V m c main_arg8) (funext fun a => Fin.ext ?_)
  exact match a with
    | ⟨0, _⟩ => by
      show win0_8.index t (0 : Fin 1) * 41 + 1 * (x 0).val = (x 0).val
      rw [(zero_idx8 t)]; omega

/-- Window 9's block is its whole array at every point. -/
theorem blk9_eq (c : Dev nD) (t : Fin cfg0.N) : (iblk m c 9 t : S41x41.Idx → EReal) = V m c main_arg9 := by
  funext x
  show V m c main_arg9 (((cfg0.win 9).blk t).view.emb x) = V m c main_arg9 x
  refine congrArg (V m c main_arg9) (funext fun a => Fin.ext ?_)
  exact match a with
    | ⟨0, _⟩ => by
      show win0_9.index t (0 : Fin 2) * 41 + 1 * (x 0).val = (x 0).val
      rw [(zero_idx9 t).1]; omega
    | ⟨1, _⟩ => by
      show win0_9.index t (1 : Fin 2) * 41 + 1 * (x 1).val = (x 1).val
      rw [(zero_idx9 t).2]; omega

/-- Window 10's block is its whole array at every point. -/
theorem blk10_eq (c : Dev nD) (t : Fin cfg0.N) : (iblk m c 10 t : S41.Idx → EReal) = V m c main_arg10 := by
  funext x
  show V m c main_arg10 (((cfg0.win 10).blk t).view.emb x) = V m c main_arg10 x
  refine congrArg (V m c main_arg10) (funext fun a => Fin.ext ?_)
  exact match a with
    | ⟨0, _⟩ => by
      show win0_10.index t (0 : Fin 1) * 41 + 1 * (x 0).val = (x 0).val
      rw [(zero_idx10 t)]; omega

/-- Window 11's block is its whole array at every point. -/
theorem blk11_eq (c : Dev nD) (t : Fin cfg0.N) : (iblk m c 11 t : S22x41.Idx → EReal) = V m c main_arg11 := by
  funext x
  show V m c main_arg11 (((cfg0.win 11).blk t).view.emb x) = V m c main_arg11 x
  refine congrArg (V m c main_arg11) (funext fun a => Fin.ext ?_)
  exact match a with
    | ⟨0, _⟩ => by
      show win0_11.index t (0 : Fin 2) * 22 + 1 * (x 0).val = (x 0).val
      rw [(zero_idx11 t).1]; omega
    | ⟨1, _⟩ => by
      show win0_11.index t (1 : Fin 2) * 41 + 1 * (x 1).val = (x 1).val
      rw [(zero_idx11 t).2]; omega

/-- Window 12's block is its whole array at every point. -/
theorem blk12_eq (c : Dev nD) (t : Fin cfg0.N) : (iblk m c 12 t : S22.Idx → EReal) = V m c main_arg12 := by
  funext x
  show V m c main_arg12 (((cfg0.win 12).blk t).view.emb x) = V m c main_arg12 x
  refine congrArg (V m c main_arg12) (funext fun a => Fin.ext ?_)
  exact match a with
    | ⟨0, _⟩ => by
      show win0_12.index t (0 : Fin 1) * 22 + 1 * (x 0).val = (x 0).val
      rw [(zero_idx12 t)]; omega

/-- Local row `r` of the input block at point `t` is row `1024 t + r` of the input. -/
theorem blk0_row (c : Dev nD) (t : Fin cfg0.N) (j : S1024x10x22.Idx) :
    Cert.RowSpec.rowOf (iblk m c 0 t : S1024x440.Idx → EReal) (j 0)
      = Cert.RowSpec.rowOf (V m c main_arg0 : S262144x440.Idx → EReal) ((((cfg0.win 13).blk t).view.emb j) 0) := by
  funext k
  show V m c main_arg0 (((cfg0.win 0).blk t).view.emb (ValueIdx.ix2 (j 0) k)) = V m c main_arg0 (ValueIdx.ix2 ((((cfg0.win 13).blk t).view.emb j) 0) k)
  refine congrArg (V m c main_arg0) (funext fun a => Fin.ext ?_)
  obtain ⟨e0, e1, e2, e3⟩ := row_idx t
  exact match a with
    | ⟨0, _⟩ => by
      show win0_0.index t (0 : Fin 2) * 1024 + 1 * (j 0).val = win0_13.index t (0 : Fin 3) * 1024 + 1 * (j 0).val
      rw [e0]
    | ⟨1, _⟩ => by
      show win0_0.index t (1 : Fin 2) * 440 + 1 * k.val = k.val
      rw [e1]; omega

/-- The segment and class coordinates of a block element are its own. -/
theorem emb13_1 (t : Fin cfg0.N) (j : S1024x10x22.Idx) : ((((cfg0.win 13).blk t).view.emb j) 1 : Fin 10) = j 1 := by
  apply Fin.ext
  show win0_13.index t (1 : Fin 3) * 10 + 1 * (j 1).val = (j 1).val
  rw [(row_idx t).2.2.1]; omega
theorem emb13_2 (t : Fin cfg0.N) (j : S1024x10x22.Idx) : ((((cfg0.win 13).blk t).view.emb j) 2 : Fin 22) = j 2 := by
  apply Fin.ext
  show win0_13.index t (2 : Fin 3) * 22 + 1 * (j 2).val = (j 2).val
  rw [(row_idx t).2.2.2]; omega

/-! ## Which point covers an index -/

/-- An index of the output is in point `t`'s block iff each coordinate is in the block's range on its axis. -/
theorem mem_blk (t : Fin cfg0.N) (i : S262144x10x22.Idx) :
    i ∈ ((cfg0.win 13).blk t).view.set ↔ ∀ a : Fin 3, win0_13.index t a * S1024x10x22.size a ≤ (i a).val ∧ (i a).val < win0_13.index t a * S1024x10x22.size a + S1024x10x22.size a := by
  show i ∈ ((View.whole main_v0).slice (win0_13.rect t)).set ↔ _
  rw [View.set_slice_whole, Rect.mem_set_unit]
  exact Iff.rfl

/-- Every output index is in the block of the point that holds its row: point `b / 1024`. -/
theorem cover (i : S262144x10x22.Idx) : ∃ t : Fin cfg0.N, (cfg0.win 13).flush t = true ∧ i ∈ ((cfg0.win 13).blk t).view.set := by
  have h0 : (i 0).val < 262144 := (i 0).isLt
  have h1 : (i 1).val < 10 := (i 1).isLt
  have h2 : (i 2).val < 22 := (i 2).isLt
  refine ⟨⟨(i 0).val / 1024, by show (i 0).val / 1024 < 256; omega⟩, flush0_13 _, ?_⟩
  rw [mem_blk]
  obtain ⟨-, -, e2, e3⟩ := row_idx ⟨(i 0).val / 1024, by show (i 0).val / 1024 < 256; omega⟩
  have e0 := out_idx0 ⟨(i 0).val / 1024, by show (i 0).val / 1024 < 256; omega⟩
  intro a
  exact match a with
    | ⟨0, _⟩ => by
      show win0_13.index _ (0 : Fin 3) * 1024 ≤ (i 0).val ∧ (i 0).val < win0_13.index _ (0 : Fin 3) * 1024 + 1024
      rw [e0]; show (i 0).val / 1024 * 1024 ≤ (i 0).val ∧ (i 0).val < (i 0).val / 1024 * 1024 + 1024; omega
    | ⟨1, _⟩ => by
      show win0_13.index _ (1 : Fin 3) * 10 ≤ (i 1).val ∧ (i 1).val < win0_13.index _ (1 : Fin 3) * 10 + 10
      rw [e2]; omega
    | ⟨2, _⟩ => by
      show win0_13.index _ (2 : Fin 3) * 22 ≤ (i 2).val ∧ (i 2).val < win0_13.index _ (2 : Fin 3) * 22 + 22
      rw [e3]; omega

/-! ## What a point writes back, and the array after the run -/

section
variable (hblock : ∀ (x0 : Vec Ideal S1024x440 .f32) (x1 : Vec Ideal S40x40 .f32) (x2 : Vec Ideal S40 .f32) (x3 : Vec Ideal S40x40 .f32) (x4 : Vec Ideal S40 .f32) (x5 : Vec Ideal S10x40 .f32) (x6 : Vec Ideal S10 .f32) (x7 : Vec Ideal S41x41 .f32) (x8 : Vec Ideal S41 .f32) (x9 : Vec Ideal S41x41 .f32) (x10 : Vec Ideal S41 .f32) (x11 : Vec Ideal S22x41 .f32) (x12 : Vec Ideal S22 .f32) (y : S1024x10x22.Idx),
      out0_13 (F := Ideal) x0 x1 x2 x3 x4 x5 x6 x7 x8 x9 x10 x11 x12 y
        = Cert.RowSpec.rowOut (Cert.RowSpec.paramsOf x1 x2 x3 x4 x5 x6 x7 x8 x9 x10 x11 x12) (Cert.RowSpec.rowOf x0 (y 0)) (y 1) (y 2))
include hblock

/-- WHAT POINT `t` WRITES BACK is block `t` of `G` of the argument arrays. -/
theorem flushed_eq (c : Dev nD) (t : Fin cfg0.N) :
    (dats m 0 c).flushed 13 t = ((cfg0.win 13).blk t).view.read (Elt Ideal) (G (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12)) := by
  rw [Value.flushed13]
  funext j
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j = G (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (((cfg0.win 13).blk t).view.emb j)
  refine (hblock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j).trans ?_
  unfold G
  rw [blk1_eq m c t, blk2_eq m c t, blk3_eq m c t, blk4_eq m c t, blk5_eq m c t, blk6_eq m c t, blk7_eq m c t, blk8_eq m c t, blk9_eq m c t, blk10_eq m c t, blk11_eq m c t, blk12_eq m c t, blk0_row m c t j, emb13_1 t j, emb13_2 t j]

/-- THE ARRAY after the run is `G` of the argument arrays. -/
theorem final (c : Dev nD) : (dats m 0 c).arrAt 13 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (dats m 0 c).arrAt_eq_of_cover 13 (G (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12)) (fun t _ => flushed_eq m hblock c t) (cover)

/-- The kernel's run: the output array ends at `G` of the argument arrays, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m hblock c), (h c).2⟩) (Value.run_blocks m ρ)

end

end Cert.KernelIdeal.ArrayValue

end
-- ==== Proof.LibIdxExt.lean ====
/-
  Two indices of a literal shape of rank 1, 2 or 3 are equal when their coordinates are equal as natural numbers.
  The coordinate equations are usually closed by `rfl` (an index built by matching on the axis computes at the
  literal axes) or by `omega`.
-/
import Idealize.ShloMosaic.Lib.ValueIdx

namespace Cert.LibIdxExt

open Idealize.ShloMosaic

/-- Rank-1 indices with the same coordinate are equal. -/
theorem ext1 {n0 : Nat} {p q : (⟨1, ![n0]⟩ : Shape).Idx} (h0 : (p 0).val = (q 0).val) : p = q :=
  funext fun a => Fin.ext (by match a with | ⟨0, _⟩ => exact h0)

/-- Rank-2 indices with the same two coordinates are equal. -/
theorem ext2 {n0 n1 : Nat} {p q : (⟨2, ![n0, n1]⟩ : Shape).Idx} (h0 : (p 0).val = (q 0).val)
    (h1 : (p 1).val = (q 1).val) : p = q :=
  funext fun a => Fin.ext (by match a with | ⟨0, _⟩ => exact h0 | ⟨1, _⟩ => exact h1)

/-- Rank-3 indices with the same three coordinates are equal. -/
theorem ext3 {n0 n1 n2 : Nat} {p q : (⟨3, ![n0, n1, n2]⟩ : Shape).Idx} (h0 : (p 0).val = (q 0).val)
    (h1 : (p 1).val = (q 1).val) (h2 : (p 2).val = (q 2).val) : p = q :=
  funext fun a => Fin.ext (by match a with | ⟨0, _⟩ => exact h0 | ⟨1, _⟩ => exact h1 | ⟨2, _⟩ => exact h2)

end Cert.LibIdxExt
-- ==== Proof.RefRow.lean ====
/-
  The reference program read row by row: its result at (b, s, o) is `RowSpec.rowOut` of row b of the input.

  One lemma per layer, each at a general index and stated through the index's coordinates: the two dense layers
  and the logits of the first perceptron, its softmax (the fold of `max` from −∞, the exponentials, their sum, the
  quotient), the joined 41 inputs of the second perceptron (a segment of the row, then the segment's weight), its
  two dense layers and logits, its softmax, and the product with the segment's weight.
-/
import proofs.«148911_j429496729976_1_alg».proof.Proof.RefRead
import proofs.«148911_j429496729976_1_alg».proof.Proof.RowSpec
import proofs.«148911_j429496729976_1_alg».proof.Proof.LibIdxExt
import Idealize.ShloMosaic.Lib.Pipeline.Value
import Idealize.ShloMosaic.Lib.ValueIdx
import Idealize.ShloMosaic.PureOps.Ideal.Laws

noncomputable section

namespace Cert.ReferenceIdeal.RowValue

open Cert.ReferenceIdeal Cert.ReferenceIdeal.Gen Idealize.ShloMosaic Idealize.ShloMosaic.TcCoe Idealize.SL.Sem Idealize.ShloMosaic.StableHlo
open Cert.LibIdxExt

section Layers

open Cert.ReferenceIdeal.ReadP Cert.RowSpec

variable (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (x7 : (⟨S41x41, .f32⟩ : BufTy).Contents (Elt Ideal)) (x8 : (⟨S41, .f32⟩ : BufTy).Contents (Elt Ideal)) (x9 : (⟨S41x41, .f32⟩ : BufTy).Contents (Elt Ideal)) (x10 : (⟨S41, .f32⟩ : BufTy).Contents (Elt Ideal)) (x11 : (⟨S22x41, .f32⟩ : BufTy).Contents (Elt Ideal)) (x12 : (⟨S22, .f32⟩ : BufTy).Contents (Elt Ideal))

local notation "PR" => Cert.RowSpec.paramsOf x1 x2 x3 x4 x5 x6 x7 x8 x9 x10 x11 x12

/-- The first hidden layer of the first perceptron. -/
theorem v8_eq (i : S262144x40.Idx) :
    val_main_v8 (F := Ideal) x0 x1 x2 i = hid1 PR (rowOf x0 (i 0)) (i 1) := by
  rw [val_main_v8_apply, val_main_v7_apply, val_main_v4_apply, val_main_v6_apply, val_main_v5_apply,
    val_main_call0_v0_apply, val_main_call0_cst_apply]
  simp only [val_main_v0_apply, val_main_v3_apply]
  unfold hid1 relu dense
  rw [Ideal.maximumf_def, Ideal.addf_def, Ideal.ofBits_def, Ideal.ofBits_zero_f32]
  refine congrArg₂ max (congrArg₂ (· + ·) (Finset.sum_congr rfl fun k _ =>
    congrArg₂ (· * ·) (congrArg x0 (ext2 rfl rfl)) (congrArg x1 (ext2 rfl rfl))) (congrArg x2 (ext1 rfl))) rfl

/-- The second hidden layer of the first perceptron. -/
theorem v14_eq (i : S262144x40.Idx) :
    val_main_v14 (F := Ideal) x0 x1 x2 x3 x4 i = hid2 PR (rowOf x0 (i 0)) (i 1) := by
  rw [val_main_v14_apply, val_main_v13_apply, val_main_v10_apply, val_main_v12_apply, val_main_v11_apply,
    val_main_call1_v0_apply, val_main_call1_cst_apply]
  simp only [val_main_v9_apply, v8_eq x0 x1 x2 x3 x4 x5 x6 x7 x8 x9 x10 x11 x12]
  unfold hid2 relu dense
  rw [Ideal.maximumf_def, Ideal.addf_def, Ideal.ofBits_def, Ideal.ofBits_zero_f32]
  refine congrArg₂ max (congrArg₂ (· + ·) (Finset.sum_congr rfl fun k _ =>
    congrArg₂ (· * ·) rfl (congrArg x3 (ext2 rfl rfl))) (congrArg x4 (ext1 rfl))) rfl

/-- The ten logits of the first perceptron. -/
theorem v19_eq (i : S262144x10.Idx) :
    val_main_v19 (F := Ideal) x0 x1 x2 x3 x4 x5 x6 i = logitA PR (rowOf x0 (i 0)) (i 1) := by
  rw [val_main_v19_apply, val_main_v16_apply, val_main_v18_apply, val_main_v17_apply]
  simp only [val_main_v15_apply, v14_eq x0 x1 x2 x3 x4 x5 x6 x7 x8 x9 x10 x11 x12]
  unfold logitA dense
  rw [Ideal.addf_def]
  refine congrArg₂ (· + ·) (Finset.sum_congr rfl fun k _ =>
    congrArg₂ (· * ·) rfl (congrArg x5 (ext2 rfl rfl))) (congrArg x6 (ext1 rfl))

/-- The maximum of the ten logits, folded from −∞. -/
theorem v20_eq (i : S262144.Idx) :
    val_main_v20 (F := Ideal) x0 x1 x2 x3 x4 x5 x6 i
      = (Finset.univ : Finset (Fin 10)).fold max negInf (logitA PR (rowOf x0 (i 0))) := by
  have h : S262144x10.Reduces [1] S262144 := by decide
  unfold val_main_v20
  rw [Host.reduce_eq_fold_single FloatOps.maximumf _ _ reducesTo_S262144x10_S262144_d1 h h_S_ i]
  exact Finset.fold_congr fun k _ => (v19_eq x0 x1 x2 x3 x4 x5 x6 x7 x8 x9 x10 x11 x12 _).trans rfl

/-- … joined once more with −∞: the row's maximum. -/
theorem v22_eq (i : S262144.Idx) :
    val_main_v22 (F := Ideal) x0 x1 x2 x3 x4 x5 x6 i = rowMax (logitA PR (rowOf x0 (i 0))) := by
  rw [val_main_v22_apply, val_main_v21_apply, val_main_cst_0_apply,
    v20_eq x0 x1 x2 x3 x4 x5 x6 x7 x8 x9 x10 x11 x12]
  rfl

/-- The exponential of a logit less the row's maximum. -/
theorem v26_eq (i : S262144x10.Idx) :
    val_main_v26 (F := Ideal) x0 x1 x2 x3 x4 x5 x6 i
      = Ideal.exp (logitA PR (rowOf x0 (i 0)) (i 1) - rowMax (logitA PR (rowOf x0 (i 0)))) := by
  rw [val_main_v26_apply, val_main_v25_apply, val_main_v24_apply, val_main_v23_apply,
    v22_eq x0 x1 x2 x3 x4 x5 x6 x7 x8 x9 x10 x11 x12, v19_eq x0 x1 x2 x3 x4 x5 x6 x7 x8 x9 x10 x11 x12]
  rfl

/-- The sum of the ten exponentials. -/
theorem v27_eq (i : S262144.Idx) :
    val_main_v27 (F := Ideal) x0 x1 x2 x3 x4 x5 x6 i
      = ∑ k : Fin 10, Ideal.exp (logitA PR (rowOf x0 (i 0)) k - rowMax (logitA PR (rowOf x0 (i 0)))) := by
  rw [val_main_v27_apply, val_main_cst_1_apply, Ideal.ofBits_def, Ideal.ofBits_zero_f32, zero_add]
  exact Finset.sum_congr rfl fun k _ => (v26_eq x0 x1 x2 x3 x4 x5 x6 x7 x8 x9 x10 x11 x12 _).trans rfl

/-- The ten segment weights: the softmax of the logits. -/
theorem v30_eq (i : S262144x10.Idx) :
    val_main_v30 (F := Ideal) x0 x1 x2 x3 x4 x5 x6 i = gate PR (rowOf x0 (i 0)) (i 1) := by
  rw [val_main_v30_apply, val_main_v29_apply, val_main_v28_apply,
    v27_eq x0 x1 x2 x3 x4 x5 x6 x7 x8 x9 x10 x11 x12, v26_eq x0 x1 x2 x3 x4 x5 x6 x7 x8 x9 x10 x11 x12]
  rfl

/-- The 41 inputs of the second perceptron: a segment of the row, then the segment's weight. -/
theorem v32_eq (i : S262144x10x41.Idx) :
    val_main_v32 (F := Ideal) x0 x1 x2 x3 x4 x5 x6 i = smallIn PR (rowOf x0 (i 0)) (i 1) (i 2) := by
  have h2 : (i 2).val < 41 := (i 2).isLt
  have h1 : (i 1).val < 10 := (i 1).isLt
  have h0 : (i 0).val < 262144 := (i 0).isLt
  unfold val_main_v32 smallIn
  by_cases h : (i 2).val < 40
  · rw [dif_pos h, concatenate_pair_apply_left 2 _ _ concatenates_S262144x10x40_S262144x10x1_S262144x10x41_d2 i rfl
      (ValueIdx.ix3 (i 0) (i 1) ⟨(i 2).val, h⟩) (fun b => match b with | ⟨0, _⟩ => rfl | ⟨1, _⟩ => rfl | ⟨2, _⟩ => rfl),
      val_main_v2_apply, val_main_v1_apply]
    unfold segEntry rowOf
    refine congrArg x0 (ext2 ?_ ?_)
    · show (((i 0).val * 10 + (i 1).val) * 40 + (i 2).val) / 400 = (i 0).val
      omega
    · show 40 + (((i 0).val * 10 + (i 1).val) * 40 + (i 2).val) % 400 = 40 + 40 * (i 1).val + (i 2).val
      omega
  · rw [dif_neg h, concatenate_pair_apply_right 2 _ _ concatenates_S262144x10x40_S262144x10x1_S262144x10x41_d2 i rfl rfl
      (ValueIdx.ix3 (i 0) (i 1) ⟨0, Nat.one_pos⟩)
      (fun b => match b with | ⟨0, _⟩ => fun _ => rfl | ⟨1, _⟩ => fun _ => rfl | ⟨2, _⟩ => fun hb => absurd rfl hb)
      (by show 0 + 40 = (i 2).val; omega),
      val_main_v31_apply, v30_eq x0 x1 x2 x3 x4 x5 x6 x7 x8 x9 x10 x11 x12]
    rfl

/-- The first hidden layer of the second perceptron. -/
theorem v37_eq (i : S262144x10x41.Idx) :
    val_main_v37 (F := Ideal) x0 x1 x2 x3 x4 x5 x6 x7 x8 i = sh1 PR (rowOf x0 (i 0)) (i 1) (i 2) := by
  rw [val_main_v37_apply, val_main_v36_apply, val_main_v33_apply, val_main_v35_apply, val_main_v34_apply,
    val_main_call2_v0_apply, val_main_call2_cst_apply]
  simp only [v32_eq x0 x1 x2 x3 x4 x5 x6 x7 x8 x9 x10 x11 x12]
  unfold sh1 relu dense
  rw [Ideal.maximumf_def, Ideal.addf_def, Ideal.ofBits_def, Ideal.ofBits_zero_f32]
  refine congrArg₂ max (congrArg₂ (· + ·) (Finset.sum_congr rfl fun k _ =>
    congrArg₂ (· * ·) rfl (congrArg x7 (ext2 rfl rfl))) (congrArg x8 (ext1 rfl))) rfl

/-- The second hidden layer of the second perceptron. -/
theorem v42_eq (i : S262144x10x41.Idx) :
    val_main_v42 (F := Ideal) x0 x1 x2 x3 x4 x5 x6 x7 x8 x9 x10 i = sh2 PR (rowOf x0 (i 0)) (i 1) (i 2) := by
  rw [val_main_v42_apply, val_main_v41_apply, val_main_v38_apply, val_main_v40_apply, val_main_v39_apply,
    val_main_call3_v0_apply, val_main_call3_cst_apply]
  simp only [v37_eq x0 x1 x2 x3 x4 x5 x6 x7 x8 x9 x10 x11 x12]
  unfold sh2 relu dense
  rw [Ideal.maximumf_def, Ideal.addf_def, Ideal.ofBits_def, Ideal.ofBits_zero_f32]
  refine congrArg₂ max (congrArg₂ (· + ·) (Finset.sum_congr rfl fun k _ =>
    congrArg₂ (· * ·) rfl (congrArg x9 (ext2 rfl rfl))) (congrArg x10 (ext1 rfl))) rfl

/-- The 22 logits of the second perceptron. -/
theorem v46_eq (i : S262144x10x22.Idx) :
    val_main_v46 (F := Ideal) x0 x1 x2 x3 x4 x5 x6 x7 x8 x9 x10 x11 x12 i = logitS PR (rowOf x0 (i 0)) (i 1) (i 2) := by
  rw [val_main_v46_apply, val_main_v43_apply, val_main_v45_apply, val_main_v44_apply]
  simp only [v42_eq x0 x1 x2 x3 x4 x5 x6 x7 x8 x9 x10 x11 x12]
  unfold logitS dense
  rw [Ideal.addf_def]
  refine congrArg₂ (· + ·) (Finset.sum_congr rfl fun k _ =>
    congrArg₂ (· * ·) rfl (congrArg x11 (ext2 rfl rfl))) (congrArg x12 (ext1 rfl))

/-- The maximum of the 22 logits, folded from −∞. -/
theorem v47_eq (i : S262144x10.Idx) :
    val_main_v47 (F := Ideal) x0 x1 x2 x3 x4 x5 x6 x7 x8 x9 x10 x11 x12 i
      = (Finset.univ : Finset (Fin 22)).fold max negInf (logitS PR (rowOf x0 (i 0)) (i 1)) := by
  have h : S262144x10x22.Reduces [2] S262144x10 := by decide
  unfold val_main_v47
  rw [Host.reduce_eq_fold_single FloatOps.maximumf _ _ reducesTo_S262144x10x22_S262144x10_d2 h h_S_ i]
  exact Finset.fold_congr fun k _ => (v46_eq x0 x1 x2 x3 x4 x5 x6 x7 x8 x9 x10 x11 x12 _).trans rfl

/-- … joined once more with −∞: the maximum of the 22 logits. -/
theorem v49_eq (i : S262144x10.Idx) :
    val_main_v49 (F := Ideal) x0 x1 x2 x3 x4 x5 x6 x7 x8 x9 x10 x11 x12 i = rowMax (logitS PR (rowOf x0 (i 0)) (i 1)) := by
  rw [val_main_v49_apply, val_main_v48_apply, val_main_cst_3_apply,
    v47_eq x0 x1 x2 x3 x4 x5 x6 x7 x8 x9 x10 x11 x12]
  rfl

/-- The exponential of a logit less the maximum. -/
theorem v53_eq (i : S262144x10x22.Idx) :
    val_main_v53 (F := Ideal) x0 x1 x2 x3 x4 x5 x6 x7 x8 x9 x10 x11 x12 i
      = Ideal.exp (logitS PR (rowOf x0 (i 0)) (i 1) (i 2) - rowMax (logitS PR (rowOf x0 (i 0)) (i 1))) := by
  rw [val_main_v53_apply, val_main_v52_apply, val_main_v51_apply, val_main_v50_apply,
    v49_eq x0 x1 x2 x3 x4 x5 x6 x7 x8 x9 x10 x11 x12, v46_eq x0 x1 x2 x3 x4 x5 x6 x7 x8 x9 x10 x11 x12]
  rfl

/-- The sum of the 22 exponentials. -/
theorem v54_eq (i : S262144x10.Idx) :
    val_main_v54 (F := Ideal) x0 x1 x2 x3 x4 x5 x6 x7 x8 x9 x10 x11 x12 i
      = ∑ k : Fin 22, Ideal.exp (logitS PR (rowOf x0 (i 0)) (i 1) k - rowMax (logitS PR (rowOf x0 (i 0)) (i 1))) := by
  rw [val_main_v54_apply, val_main_cst_4_apply, Ideal.ofBits_def, Ideal.ofBits_zero_f32, zero_add]
  exact Finset.sum_congr rfl fun k _ => (v53_eq x0 x1 x2 x3 x4 x5 x6 x7 x8 x9 x10 x11 x12 _).trans rfl

/-- The softmax of the 22 logits. -/
theorem v57_eq (i : S262144x10x22.Idx) :
    val_main_v57 (F := Ideal) x0 x1 x2 x3 x4 x5 x6 x7 x8 x9 x10 x11 x12 i
      = softmax (logitS PR (rowOf x0 (i 0)) (i 1)) (i 2) := by
  rw [val_main_v57_apply, val_main_v56_apply, val_main_v55_apply,
    v54_eq x0 x1 x2 x3 x4 x5 x6 x7 x8 x9 x10 x11 x12, v53_eq x0 x1 x2 x3 x4 x5 x6 x7 x8 x9 x10 x11 x12]
  rfl

end Layers

open Cert.ReferenceIdeal Cert.ReferenceIdeal.ReadP in
theorem ref_eq (x0 : (⟨S262144x440, .f32⟩ : BufTy).Contents (Elt Ideal)) (x1 : (⟨S40x40, .f32⟩ : BufTy).Contents (Elt Ideal)) (x2 : (⟨S40, .f32⟩ : BufTy).Contents (Elt Ideal)) (x3 : (⟨S40x40, .f32⟩ : BufTy).Contents (Elt Ideal)) (x4 : (⟨S40, .f32⟩ : BufTy).Contents (Elt Ideal)) (x5 : (⟨S10x40, .f32⟩ : BufTy).Contents (Elt Ideal)) (x6 : (⟨S10, .f32⟩ : BufTy).Contents (Elt Ideal)) (x7 : (⟨S41x41, .f32⟩ : BufTy).Contents (Elt Ideal)) (x8 : (⟨S41, .f32⟩ : BufTy).Contents (Elt Ideal)) (x9 : (⟨S41x41, .f32⟩ : BufTy).Contents (Elt Ideal)) (x10 : (⟨S41, .f32⟩ : BufTy).Contents (Elt Ideal)) (x11 : (⟨S22x41, .f32⟩ : BufTy).Contents (Elt Ideal)) (x12 : (⟨S22, .f32⟩ : BufTy).Contents (Elt Ideal)) (i : S262144x10x22.Idx) :
    val_main_v60 (F := Ideal) x0 x1 x2 x3 x4 x5 x6 x7 x8 x9 x10 x11 x12 i
      = Cert.RowSpec.rowOut (Cert.RowSpec.paramsOf x1 x2 x3 x4 x5 x6 x7 x8 x9 x10 x11 x12) (Cert.RowSpec.rowOf x0 (i 0)) (i 1) (i 2) := by
  rw [val_main_v60_apply, val_main_v59_apply, val_main_v58_apply, v57_eq x0 x1 x2 x3 x4 x5 x6 x7 x8 x9 x10 x11 x12,
    v30_eq x0 x1 x2 x3 x4 x5 x6 x7 x8 x9 x10 x11 x12]
  rfl

end Cert.ReferenceIdeal.RowValue

end
-- ==== Proof.lean ====
/-
  The kernel is a row-wise network: of each 440-entry input row the first 40 entries pass through a three-layer
  perceptron and a softmax into ten weights; each of the ten 40-entry segments that follow, extended by its own weight
  as a 41st entry, passes through a second three-layer perceptron shared by the segments, a softmax over 22 classes, and
  a product with the segment's weight.  The kernel computes 1024 rows per grid point, with every inner product as a matrix
  product from a zero accumulator and the 41-entry inner product of the second perceptron's first layer as a 40-entry
  one plus a one-entry one; the reference computes all 262144 rows at once with the 41 entries concatenated.

  On the extended reals a change of float format is the identity, a matrix product from zero and the reference's
  contraction are the same finite sum, and a finite sum over 41 terms is the sum over the first 40 plus the last; both
  softmaxes subtract the same maximum (a fold of `max` from −∞) and divide by the same sum.  So both programs end with the
  output array at ONE function of the argument arrays — at (b, s, o), `RowSpec.rowOut` of row b —: the kernel because each
  of its 256 blocks is that function's block and the blocks cover every row (Proof/KernelRow.lean for the body's block,
  Proof/KernelArray.lean for the array), the reference stage by stage (Proof/RefRow.lean over its operations read one at a
  time).  No law used needs finiteness, so the precondition is never opened.  The ideal pass rewrote nothing: `preserves`
  is `True`.
-/
import proofs.«148911_j429496729976_1_alg».proof.Defs
import proofs.«148911_j429496729976_1_alg».proof.Proof.Gen.Kernel
import proofs.«148911_j429496729976_1_alg».proof.Proof.Gen.Kernel.Skeleton
import proofs.«148911_j429496729976_1_alg».proof.Proof.Gen.Kernel.Launch
import proofs.«148911_j429496729976_1_alg».proof.Proof.Gen.Kernel.Points
import proofs.«148911_j429496729976_1_alg».proof.Proof.Gen.Kernel.Frame
import proofs.«148911_j429496729976_1_alg».proof.Proof.Gen.KernelIdeal
import proofs.«148911_j429496729976_1_alg».proof.Proof.Gen.KernelIdeal.Skeleton
import proofs.«148911_j429496729976_1_alg».proof.Proof.Gen.KernelIdeal.Launch
import proofs.«148911_j429496729976_1_alg».proof.Proof.Gen.KernelIdeal.Points
import proofs.«148911_j429496729976_1_alg».proof.Proof.Gen.KernelIdeal.Frame
import proofs.«148911_j429496729976_1_alg».proof.Proof.Gen.KernelIdeal.Value
import proofs.«148911_j429496729976_1_alg».proof.Proof.Gen.ReferenceIdeal
import proofs.«148911_j429496729976_1_alg».proof.Proof.Gen.Pre_finite_inputs
import proofs.«148911_j429496729976_1_alg».proof.Proof.RowSpec
import proofs.«148911_j429496729976_1_alg».proof.Proof.KernelRow
import proofs.«148911_j429496729976_1_alg».proof.Proof.KernelArray
import proofs.«148911_j429496729976_1_alg».proof.Proof.RefRun
import proofs.«148911_j429496729976_1_alg».proof.Proof.RefRead
import proofs.«148911_j429496729976_1_alg».proof.Proof.RefRow
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- No operation was rewritten for the reading at the extended reals. -/
theorem preserves : Cert.preserves_Kernel_KernelIdeal := trivial

/-- From memories that agree on the thirteen arguments both programs end with the output array at
    `ArrayValue.G` of the arguments: at (b, s, o), `RowSpec.rowOut` of row b of the input. -/
theorem algebraic : Cert.algebraic_KernelIdeal_ReferenceIdeal := by
  intro m ρ m' ρ' _ hagree
  refine ⟨fun c => Cert.KernelIdeal.ArrayValue.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.ArrayValue.run m ρ Cert.KernelIdeal.RowValue.block_eq, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v60_eq]
  obtain ⟨a0, a1, a2, a3, a4, a5, a6, a7, a8, a9, a10, a11, a12⟩ := hagree c
  rw [a0, a1, a2, a3, a4, a5, a6, a7, a8, a9, a10, a11, a12]
  funext i
  exact Cert.ReferenceIdeal.RowValue.ref_eq _ _ _ _ _ _ _ _ _ _ _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
